-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_v32)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v32) = v3 c
          ∧ r.2.mem ((c.tc : Thread Cert.ReferenceIdeal.nD Cert.ReferenceIdeal.τ).loc Cert.ReferenceIdeal.main_v8) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16x128 : Shape := ⟨3, ![4096, 16, 128]⟩
abbrev S4096x16x3x128 : Shape := ⟨4, ![4096, 16, 3, 128]⟩
abbrev S4096x64x3 : Shape := ⟨3, ![4096, 64, 3]⟩
abbrev S16x3 : Shape := ⟨2, ![16, 3]⟩
abbrev S_ : Shape := ⟨0, ![]⟩

class Facts : Prop where
  bcast_S_S4096x16x128 : S_.BroadcastsInDim S4096x16x128 (![] : Fin 0 → Fin S4096x16x128.rank)
  reducesTo_S4096x16x128_S_d0_1_2 : S4096x16x128.ReducesTo [0, 1, 2] S_
  h_S_ : 0 < S_.numel
  bcast_S_S4096x16x3x128 : S_.BroadcastsInDim S4096x16x3x128 (![] : Fin 0 → Fin S4096x16x3x128.rank)
  reducesTo_S4096x16x3x128_S_d0_1_2_3 : S4096x16x3x128.ReducesTo [0, 1, 2, 3] S_
  bcast_S_S4096x64x3 : S_.BroadcastsInDim S4096x64x3 (![] : Fin 0 → Fin S4096x64x3.rank)
  reducesTo_S4096x64x3_S_d0_1_2 : S4096x64x3.ReducesTo [0, 1, 2] S_
  bcast_S_S16x3 : S_.BroadcastsInDim S16x3 (![] : Fin 0 → Fin S16x3.rank)
  reducesTo_S16x3_S_d0_1 : S16x3.ReducesTo [0, 1] S_

variable [Facts]

def fn_part1 {F : FTy → Type} [FloatOps F] (main_v13 : IVec S_ 1) (main_v16 : IVec S16x3 1) : IVec S_ 1 :=
  let main_c_5 : IVec S_ 1 := constantI S_ 1 1#1
  let main_v17 : IVec S_ 1 := (fun x v => Host.reduce IntOp.andi x v reducesTo_S16x3_S_d0_1 h_S_) main_v16 main_c_5
  let main_v18 : IVec S_ 1 := andi main_v13 main_v17
  main_v18

def fn {F : FTy → Type} [FloatOps F] (main_arg0 : FVec F S4096x16x128 .f32) (main_arg1 : FVec F S4096x16x3x128 .f32) (main_arg2 : FVec F S4096x64x3 .f32) (main_arg3 : FVec F S16x3 .f32) : IVec S_ 1 :=
  let main_v0 : FVec F S4096x16x128 .f32 := Host.absf main_arg0
  let main_cst : FVec F S_ .f32 := constant S_ .f32 0x7F800000#32
  let main_v1 : FVec F S4096x16x128 .f32 := broadcastInDim S4096x16x128 ![] bcast_S_S4096x16x128 main_cst
  let main_v2 : IVec S4096x16x128 1 := cmpf .olt main_v0 main_v1
  let main_c : IVec S_ 1 := constantI S_ 1 1#1
  let main_v3 : IVec S_ 1 := (fun x v => Host.reduce IntOp.andi x v reducesTo_S4096x16x128_S_d0_1_2 h_S_) main_v2 main_c
  let main_v4 : FVec F S4096x16x3x128 .f32 := Host.absf main_arg1
  let main_cst_0 : FVec F S_ .f32 := constant S_ .f32 0x7F800000#32
  let main_v5 : FVec F S4096x16x3x128 .f32 := broadcastInDim S4096x16x3x128 ![] bcast_S_S4096x16x3x128 main_cst_0
  let main_v6 : IVec S4096x16x3x128 1 := cmpf .olt main_v4 main_v5
  let main_c_1 : IVec S_ 1 := constantI S_ 1 1#1
  let main_v7 : IVec S_ 1 := (fun x v => Host.reduce IntOp.andi x v reducesTo_S4096x16x3x128_S_d0_1_2_3 h_S_) main_v6 main_c_1
  let main_v8 : IVec S_ 1 := andi main_v3 main_v7
  let main_v9 : FVec F S4096x64x3 .f32 := Host.absf main_arg2
  let main_cst_2 : FVec F S_ .f32 := constant S_ .f32 0x7F800000#32
  let main_v10 : FVec F S4096x64x3 .f32 := broadcastInDim S4096x64x3 ![] bcast_S_S4096x64x3 main_cst_2
  let main_v11 : IVec S4096x64x3 1 := cmpf .olt main_v9 main_v10
  let main_c_3 : IVec S_ 1 := constantI S_ 1 1#1
  let main_v12 : IVec S_ 1 := (fun x v => Host.reduce IntOp.andi x v reducesTo_S4096x64x3_S_d0_1_2 h_S_) main_v11 main_c_3
  let main_v13 : IVec S_ 1 := andi main_v8 main_v12
  let main_v14 : FVec F S16x3 .f32 := Host.absf main_arg3
  let main_cst_4 : FVec F S_ .f32 := constant S_ .f32 0x7F800000#32
  let main_v15 : FVec F S16x3 .f32 := broadcastInDim S16x3 ![] bcast_S_S16x3 main_cst_4
  let main_v16 : IVec S16x3 1 := cmpf .olt main_v14 main_v15
  fn_part1 (F := F) main_v13 main_v16
-- ==== Kernel.lean ====
abbrev S4096x16x128 : Shape := ⟨3, ![4096, 16, 128]⟩
abbrev S4096x16x3x128 : Shape := ⟨4, ![4096, 16, 3, 128]⟩
abbrev S4096x64x3 : Shape := ⟨3, ![4096, 64, 3]⟩
abbrev S16x3 : Shape := ⟨2, ![16, 3]⟩
abbrev S3x4096x64 : Shape := ⟨3, ![3, 4096, 64]⟩
abbrev S16x64x3 : Shape := ⟨3, ![16, 64, 3]⟩
abbrev S1024x3 : Shape := ⟨2, ![1024, 3]⟩
abbrev S3x1024 : Shape := ⟨2, ![3, 1024]⟩
abbrev S4096x3x1024 : Shape := ⟨3, ![4096, 3, 1024]⟩
abbrev S4096x1024 : Shape := ⟨2, ![4096, 1024]⟩
abbrev S3x256x64 : Shape := ⟨3, ![3, 256, 64]⟩
abbrev S256x3x1024 : Shape := ⟨3, ![256, 3, 1024]⟩
abbrev S256x1024 : Shape := ⟨2, ![256, 1024]⟩
abbrev S1x256x64 : Shape := ⟨3, ![1, 256, 64]⟩
abbrev S256x64 : Shape := ⟨2, ![256, 64]⟩
abbrev S1x1024 : Shape := ⟨2, ![1, 1024]⟩
abbrev S1024 : Shape := ⟨1, ![1024]⟩
abbrev S256x1x1024 : Shape := ⟨3, ![256, 1, 1024]⟩
abbrev S4096x1024x3 : Shape := ⟨3, ![4096, 1024, 3]⟩
abbrev S4194304x3 : Shape := ⟨2, ![4194304, 3]⟩
abbrev S4194304 : Shape := ⟨1, ![4194304]⟩
abbrev S_ : Shape := ⟨0, ![]⟩
abbrev S4096 : Shape := ⟨1, ![4096]⟩
abbrev S4096x1x1 : Shape := ⟨3, ![4096, 1, 1]⟩
abbrev S16 : Shape := ⟨1, ![16]⟩
abbrev S1x16x1 : Shape := ⟨3, ![1, 16, 1]⟩
abbrev S4096x16x1 : Shape := ⟨3, ![4096, 16, 1]⟩
abbrev S64 : Shape := ⟨1, ![64]⟩
abbrev S1x1x64 : Shape := ⟨3, ![1, 1, 64]⟩
abbrev S4096x1x64 : Shape := ⟨3, ![4096, 1, 64]⟩
abbrev S4096x16x64 : Shape := ⟨3, ![4096, 16, 64]⟩
abbrev S1x4194304 : Shape := ⟨2, ![1, 4194304]⟩
abbrev S2x4194304 : Shape := ⟨2, ![2, 4194304]⟩
abbrev S65536x128 : Shape := ⟨2, ![65536, 128]⟩
abbrev S65536x3x128 : Shape := ⟨3, ![65536, 3, 128]⟩

abbrev nBuf : Space → Nat
  | .hbm => 43
  | .vmem => 7
  | .smem => 0
  | _ => 0

abbrev bufTy : (tb : Table) → Fin (tcTables nBuf tb) → BufTy
  | .hbm, ⟨0, _⟩ => ⟨S4096x16x128, .f32⟩
  | .hbm, ⟨1, _⟩ => ⟨S4096x16x3x128, .f32⟩
  | .hbm, ⟨2, _⟩ => ⟨S4096x64x3, .f32⟩
  | .hbm, ⟨3, _⟩ => ⟨S16x3, .f32⟩
  | .hbm, ⟨4, _⟩ => ⟨S3x4096x64, .f32⟩
  | .hbm, ⟨5, _⟩ => ⟨S16x64x3, .f32⟩
  | .hbm, ⟨6, _⟩ => ⟨S1024x3, .f32⟩
  | .hbm, ⟨7, _⟩ => ⟨S3x1024, .f32⟩
  | .hbm, ⟨8, _⟩ => ⟨S4096x3x1024, .f32⟩
  | .hbm, ⟨9, _⟩ => ⟨S4096x1024, .i32⟩
  | .hbm, ⟨10, _⟩ => ⟨S4096x1024x3, .f32⟩
  | .hbm, ⟨11, _⟩ => ⟨S4194304x3, .f32⟩
  | .hbm, ⟨12, _⟩ => ⟨S4194304, .i32⟩
  | .hbm, ⟨13, _⟩ => ⟨S_, .i32⟩
  | .hbm, ⟨14, _⟩ => ⟨S4194304, .i32⟩
  | .hbm, ⟨15, _⟩ => ⟨S4194304, .i1⟩
  | .hbm, ⟨16, _⟩ => ⟨S4096, .i32⟩
  | .hbm, ⟨17, _⟩ => ⟨S4096x1x1, .i32⟩
  | .hbm, ⟨18, _⟩ => ⟨S_, .i32⟩
  | .hbm, ⟨19, _⟩ => ⟨S4096x1x1, .i32⟩
  | .hbm, ⟨20, _⟩ => ⟨S4096x1x1, .i32⟩
  | .hbm, ⟨21, _⟩ => ⟨S16, .i32⟩
  | .hbm, ⟨22, _⟩ => ⟨S1x16x1, .i32⟩
  | .hbm, ⟨23, _⟩ => ⟨S4096x16x1, .i32⟩
  | .hbm, ⟨24, _⟩ => ⟨S4096x16x1, .i32⟩
  | .hbm, ⟨25, _⟩ => ⟨S4096x16x1, .i32⟩
  | .hbm, ⟨26, _⟩ => ⟨S_, .i32⟩
  | .hbm, ⟨27, _⟩ => ⟨S4096x1x1, .i32⟩
  | .hbm, ⟨28, _⟩ => ⟨S4096x1x1, .i32⟩
  | .hbm, ⟨29, _⟩ => ⟨S64, .i32⟩
  | .hbm, ⟨30, _⟩ => ⟨S1x1x64, .i32⟩
  | .hbm, ⟨31, _⟩ => ⟨S4096x1x64, .i32⟩
  | .hbm, ⟨32, _⟩ => ⟨S4096x1x64, .i32⟩
  | .hbm, ⟨33, _⟩ => ⟨S4096x1x64, .i32⟩
  | .hbm, ⟨34, _⟩ => ⟨S4096x16x64, .i32⟩
  | .hbm, ⟨35, _⟩ => ⟨S4194304, .i32⟩
  | .hbm, ⟨36, _⟩ => ⟨S4096x16x64, .i32⟩
  | .hbm, ⟨37, _⟩ => ⟨S4194304, .i32⟩
  | .hbm, ⟨38, _⟩ => ⟨S1x4194304, .i32⟩
  | .hbm, ⟨39, _⟩ => ⟨S1x4194304, .i32⟩
  | .hbm, ⟨40, _⟩ => ⟨S2x4194304, .i32⟩
  | .hbm, ⟨41, _⟩ => ⟨S65536x128, .f32⟩
  | .hbm, ⟨42, _⟩ => ⟨S65536x3x128, .f32⟩
  | .local _ .vmem, ⟨0, _⟩ => ⟨S3x256x64, .f32⟩
  | .local _ .vmem, ⟨1, _⟩ => ⟨S3x256x64, .f32⟩
  | .local _ .vmem, ⟨2, _⟩ => ⟨S3x1024, .f32⟩
  | .local _ .vmem, ⟨3, _⟩ => ⟨S256x3x1024, .f32⟩
  | .local _ .vmem, ⟨4, _⟩ => ⟨S256x3x1024, .f32⟩
  | .local _ .vmem, ⟨5, _⟩ => ⟨S256x1024, .i32⟩
  | .local _ .vmem, ⟨6, _⟩ => ⟨S256x1024, .i32⟩
  | _, _ => ⟨S4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S4096x64x3_S3x4096x64_2_0_1 : S4096x64x3.Transposes [2, 0, 1] S3x4096x64
  bcast_S16x3_S16x64x3_0_2 : S16x3.BroadcastsInDim S16x64x3 (![0, 2] : Fin 2 → Fin S16x64x3.rank)
  shapeCasts_S16x64x3_S1024x3 : S16x64x3.ShapeCasts S1024x3
  transposes_S1024x3_S3x1024_1_0 : S1024x3.Transposes [1, 0] S3x1024
  inb_S3x256x64_S3x256x64_0_0_0 : ∀ a, (![0, 0, 0] : Fin 3 → Nat) a + S3x256x64.size a ≤ S3x256x64.size a
  h_S3x256x64 : 0 < S3x256x64.numel
  shapeCasts_S3x256x64_S3x256x64 : S3x256x64.ShapeCasts S3x256x64
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  slices_S3x256x64_o0_0_0_S1x256x64 : S3x256x64.Slices ![0, 0, 0] S1x256x64
  shapeCasts_S1x256x64_S256x64 : S1x256x64.ShapeCasts S256x64
  slices_S3x256x64_o1_0_0_S1x256x64 : S3x256x64.Slices ![1, 0, 0] S1x256x64
  slices_S3x256x64_o2_0_0_S1x256x64 : S3x256x64.Slices ![2, 0, 0] S1x256x64
  slices_S3x1024_o0_0_S1x1024 : S3x1024.Slices ![0, 0] S1x1024
  shapeCasts_S1x1024_S1024 : S1x1024.ShapeCasts S1024
  slices_S3x1024_o1_0_S1x1024 : S3x1024.Slices ![1, 0] S1x1024
  slices_S3x1024_o2_0_S1x1024 : S3x1024.Slices ![2, 0] S1x1024
  concatenates_S256x64_S256x64_S256x64_S256x64_S256x64_S256x64_S256x64_S256x64_S256x64_S256x64_S256x64_S256x64_S256x64_S256x64_S256x64_S256x64_S256x1024_d1 : Shape.Concatenates [S256x64, S256x64, S256x64, S256x64, S256x64, S256x64, S256x64, S256x64, S256x64, S256x64, S256x64, S256x64, S256x64, S256x64, S256x64, S256x64] S256x1024 1
  shapeCasts_S1024_S1x1024 : S1024.ShapeCasts S1x1024
  broadcasts_S1x1024_S256x1024 : S1x1024.Broadcasts S256x1024
  inb_S256x3x1024_S256x1x1024_0_0_0 : ∀ a, (![0, 0, 0] : Fin 3 → Nat) a + S256x1x1024.size a ≤ S256x3x1024.size a
  h_S256x1x1024 : 0 < S256x1x1024.numel
  shapeCasts_S256x1x1024_S256x1024 : S256x1x1024.ShapeCasts S256x1024
  shapeCasts_S256x1024_S256x1x1024 : S256x1024.ShapeCasts S256x1x1024
  inb_S256x3x1024_S256x1x1024_0_1_0 : ∀ a, (![0, 1, 0] : Fin 3 → Nat) a + S256x1x1024.size a ≤ S256x3x1024.size a
  inb_S256x3x1024_S256x1x1024_0_2_0 : ∀ a, (![0, 2, 0] : Fin 3 → Nat) a + S256x1x1024.size a ≤ S256x3x1024.size a
  inb_S256x1024_S256x1024_0_0 : ∀ a, (![0, 0] : Fin 2 → Nat) a + S256x1024.size a ≤ S256x1024.size a
  h_S256x1024 : 0 < S256x1024.numel
  transposes_S4096x3x1024_S4096x1024x3_0_2_1 : S4096x3x1024.Transposes [0, 2, 1] S4096x1024x3
  shapeCasts_S4096x1024x3_S4194304x3 : S4096x1024x3.ShapeCasts S4194304x3
  shapeCasts_S4096x1024_S4194304 : S4096x1024.ShapeCasts S4194304
  bcast_S_S4194304 : S_.BroadcastsInDim S4194304 (![] : Fin 0 → Fin S4194304.rank)
  bcast_S4096_S4096x1x1_0 : S4096.BroadcastsInDim S4096x1x1 (![0] : Fin 1 → Fin S4096x1x1.rank)
  bcast_S_S4096x1x1 : S_.BroadcastsInDim S4096x1x1 (![] : Fin 0 → Fin S4096x1x1.rank)
  bcast_S16_S1x16x1_1 : S16.BroadcastsInDim S1x16x1 (![1] : Fin 1 → Fin S1x16x1.rank)
  bcast_S4096x1x1_S4096x16x1_0_1_2 : S4096x1x1.BroadcastsInDim S4096x16x1 (![0, 1, 2] : Fin 3 → Fin S4096x16x1.rank)
  bcast_S1x16x1_S4096x16x1_0_1_2 : S1x16x1.BroadcastsInDim S4096x16x1 (![0, 1, 2] : Fin 3 → Fin S4096x16x1.rank)
  bcast_S64_S1x1x64_2 : S64.BroadcastsInDim S1x1x64 (![2] : Fin 1 → Fin S1x1x64.rank)
  bcast_S4096x1x1_S4096x1x64_0_1_2 : S4096x1x1.BroadcastsInDim S4096x1x64 (![0, 1, 2] : Fin 3 → Fin S4096x1x64.rank)
  bcast_S1x1x64_S4096x1x64_0_1_2 : S1x1x64.BroadcastsInDim S4096x1x64 (![0, 1, 2] : Fin 3 → Fin S4096x1x64.rank)
  bcast_S4096x16x1_S4096x16x64_0_1_2 : S4096x16x1.BroadcastsInDim S4096x16x64 (![0, 1, 2] : Fin 3 → Fin S4096x16x64.rank)
  shapeCasts_S4096x16x64_S4194304 : S4096x16x64.ShapeCasts S4194304
  bcast_S4096x1x64_S4096x16x64_0_1_2 : S4096x1x64.BroadcastsInDim S4096x16x64 (![0, 1, 2] : Fin 3 → Fin S4096x16x64.rank)
  bcast_S4194304_S1x4194304_1 : S4194304.BroadcastsInDim S1x4194304 (![1] : Fin 1 → Fin S1x4194304.rank)
  concatenates_S1x4194304_S1x4194304_S2x4194304_d0 : Shape.Concatenates [S1x4194304, S1x4194304] S2x4194304 0
  shapeCasts_S4096x16x128_S65536x128 : S4096x16x128.ShapeCasts S65536x128
  shapeCasts_S4096x16x3x128_S65536x3x128 : S4096x16x3x128.ShapeCasts S65536x3x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x256x64.size a ≤ S3x4096x64.size a
  hwx0_0 : ∀ i : grid0.Coords, EltTy.bits .f32 = 32 ∨ (Rect.block (s := S3x4096x64) S3x256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x1024.size a ≤ S3x1024.size a
  hwx0_1 : ∀ i : grid0.Coords, EltTy.bits .f32 = 32 ∨ (Rect.block (s := S3x1024) S3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x3x1024.size a ≤ S4096x3x1024.size a
  hwx0_2 : ∀ i : grid0.Coords, EltTy.bits .f32 = 32 ∨ (Rect.block (s := S4096x3x1024) S256x3x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S4096x1024.size a
  hwx0_3 : ∀ i : grid0.Coords, EltTy.bits .i32 = 32 ∨ (Rect.block (s := S4096x1024) S256x1024.size (cc0_transform_3 i) (hinb0_3 i)).WholeWords (EltTy.packing .i32)

variable [Facts₀]

abbrev win0_0 : Pipeline.Window sig grid0 :=
  Pipeline.Window.ofSpec (Memref.whole main_v0) S3x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S3x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S256x3x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x16x128 : Shape := ⟨3, ![4096, 16, 128]⟩
abbrev S4096x16x3x128 : Shape := ⟨4, ![4096, 16, 3, 128]⟩
abbrev S4096x64x3 : Shape := ⟨3, ![4096, 64, 3]⟩
abbrev S16x3 : Shape := ⟨2, ![16, 3]⟩
abbrev S4096x1x64x3 : Shape := ⟨4, ![4096, 1, 64, 3]⟩
abbrev S1x16x1x3 : Shape := ⟨4, ![1, 16, 1, 3]⟩
abbrev S4096x16x64x3 : Shape := ⟨4, ![4096, 16, 64, 3]⟩
abbrev S_ : Shape := ⟨0, ![]⟩
abbrev S4096x16x64 : Shape := ⟨3, ![4096, 16, 64]⟩
abbrev S4194304 : Shape := ⟨1, ![4194304]⟩
abbrev S4096 : Shape := ⟨1, ![4096]⟩
abbrev S4096x1x1 : Shape := ⟨3, ![4096, 1, 1]⟩
abbrev S16 : Shape := ⟨1, ![16]⟩
abbrev S1x16x1 : Shape := ⟨3, ![1, 16, 1]⟩
abbrev S4096x16x1 : Shape := ⟨3, ![4096, 16, 1]⟩
abbrev S64 : Shape := ⟨1, ![64]⟩
abbrev S1x1x64 : Shape := ⟨3, ![1, 1, 64]⟩
abbrev S4096x1x64 : Shape := ⟨3, ![4096, 1, 64]⟩
abbrev S1x4194304 : Shape := ⟨2, ![1, 4194304]⟩
abbrev S2x4194304 : Shape := ⟨2, ![2, 4194304]⟩
abbrev S4194304x3 : Shape := ⟨2, ![4194304, 3]⟩
abbrev S65536x128 : Shape := ⟨2, ![65536, 128]⟩
abbrev S65536x3x128 : Shape := ⟨3, ![65536, 3, 128]⟩

abbrev nBuf : Space → Nat
  | .hbm => 45
  | .vmem => 0
  | .smem => 0
  | _ => 0

abbrev bufTy : (tb : Table) → Fin (tcTables nBuf tb) → BufTy
  | .hbm, ⟨0, _⟩ => ⟨S4096x16x128, .f32⟩
  | .hbm, ⟨1, _⟩ => ⟨S4096x16x3x128, .f32⟩
  | .hbm, ⟨2, _⟩ => ⟨S4096x64x3, .f32⟩
  | .hbm, ⟨3, _⟩ => ⟨S16x3, .f32⟩
  | .hbm, ⟨4, _⟩ => ⟨S4096x1x64x3, .f32⟩
  | .hbm, ⟨5, _⟩ => ⟨S1x16x1x3, .f32⟩
  | .hbm, ⟨6, _⟩ => ⟨S4096x16x64x3, .f32⟩
  | .hbm, ⟨7, _⟩ => ⟨S4096x16x64x3, .f32⟩
  | .hbm, ⟨8, _⟩ => ⟨S4096x16x64x3, .f32⟩
  | .hbm, ⟨9, _⟩ => ⟨S4096x16x64x3, .f32⟩
  | .hbm, ⟨10, _⟩ => ⟨S_, .f32⟩
  | .hbm, ⟨11, _⟩ => ⟨S4096x16x64, .f32⟩
  | .hbm, ⟨12, _⟩ => ⟨S4096x16x64, .f32⟩
  | .hbm, ⟨13, _⟩ => ⟨S_, .f32⟩
  | .hbm, ⟨14, _⟩ => ⟨S4096x16x64, .f32⟩
  | .hbm, ⟨15, _⟩ => ⟨S4096x16x64, .i1⟩
  | .hbm, ⟨16, _⟩ => ⟨S4194304, .i1⟩
  | .hbm, ⟨17, _⟩ => ⟨S4096, .i32⟩
  | .hbm, ⟨18, _⟩ => ⟨S4096x1x1, .i32⟩
  | .hbm, ⟨19, _⟩ => ⟨S_, .i32⟩
  | .hbm, ⟨20, _⟩ => ⟨S4096x1x1, .i32⟩
  | .hbm, ⟨21, _⟩ => ⟨S4096x1x1, .i32⟩
  | .hbm, ⟨22, _⟩ => ⟨S16, .i32⟩
  | .hbm, ⟨23, _⟩ => ⟨S1x16x1, .i32⟩
  | .hbm, ⟨24, _⟩ => ⟨S4096x16x1, .i32⟩
  | .hbm, ⟨25, _⟩ => ⟨S4096x16x1, .i32⟩
  | .hbm, ⟨26, _⟩ => ⟨S4096x16x1, .i32⟩
  | .hbm, ⟨27, _⟩ => ⟨S_, .i32⟩
  | .hbm, ⟨28, _⟩ => ⟨S4096x1x1, .i32⟩
  | .hbm, ⟨29, _⟩ => ⟨S4096x1x1, .i32⟩
  | .hbm, ⟨30, _⟩ => ⟨S64, .i32⟩
  | .hbm, ⟨31, _⟩ => ⟨S1x1x64, .i32⟩
  | .hbm, ⟨32, _⟩ => ⟨S4096x1x64, .i32⟩
  | .hbm, ⟨33, _⟩ => ⟨S4096x1x64, .i32⟩
  | .hbm, ⟨34, _⟩ => ⟨S4096x1x64, .i32⟩
  | .hbm, ⟨35, _⟩ => ⟨S4096x16x64, .i32⟩
  | .hbm, ⟨36, _⟩ => ⟨S4194304, .i32⟩
  | .hbm, ⟨37, _⟩ => ⟨S4096x16x64, .i32⟩
  | .hbm, ⟨38, _⟩ => ⟨S4194304, .i32⟩
  | .hbm, ⟨39, _⟩ => ⟨S1x4194304, .i32⟩
  | .hbm, ⟨40, _⟩ => ⟨S1x4194304, .i32⟩
  | .hbm, ⟨41, _⟩ => ⟨S2x4194304, .i32⟩
  | .hbm, ⟨42, _⟩ => ⟨S4194304x3, .f32⟩
  | .hbm, ⟨43, _⟩ => ⟨S65536x128, .f32⟩
  | .hbm, ⟨44, _⟩ => ⟨S65536x3x128, .f32⟩
  | _, _ => ⟨S4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]

class Facts₀ : Prop where
  bcast_S4096x64x3_S4096x1x64x3_0_2_3 : S4096x64x3.BroadcastsInDim S4096x1x64x3 (![0, 2, 3] : Fin 3 → Fin S4096x1x64x3.rank)
  bcast_S16x3_S1x16x1x3_1_3 : S16x3.BroadcastsInDim S1x16x1x3 (![1, 3] : Fin 2 → Fin S1x16x1x3.rank)
  bcast_S4096x1x64x3_S4096x16x64x3_0_1_2_3 : S4096x1x64x3.BroadcastsInDim S4096x16x64x3 (![0, 1, 2, 3] : Fin 4 → Fin S4096x16x64x3.rank)
  bcast_S1x16x1x3_S4096x16x64x3_0_1_2_3 : S1x16x1x3.BroadcastsInDim S4096x16x64x3 (![0, 1, 2, 3] : Fin 4 → Fin S4096x16x64x3.rank)
  reducesTo_S4096x16x64x3_S4096x16x64_d3 : S4096x16x64x3.ReducesTo [3] S4096x16x64
  h_S_ : 0 < S_.numel
  bcast_S_S4096x16x64 : S_.BroadcastsInDim S4096x16x64 (![] : Fin 0 → Fin S4096x16x64.rank)
  shapeCasts_S4096x16x64_S4194304 : S4096x16x64.ShapeCasts S4194304
  bcast_S4096_S4096x1x1_0 : S4096.BroadcastsInDim S4096x1x1 (![0] : Fin 1 → Fin S4096x1x1.rank)
  bcast_S_S4096x1x1 : S_.BroadcastsInDim S4096x1x1 (![] : Fin 0 → Fin S4096x1x1.rank)
  bcast_S16_S1x16x1_1 : S16.BroadcastsInDim S1x16x1 (![1] : Fin 1 → Fin S1x16x1.rank)
  bcast_S4096x1x1_S4096x16x1_0_1_2 : S4096x1x1.BroadcastsInDim S4096x16x1 (![0, 1, 2] : Fin 3 → Fin S4096x16x1.rank)
  bcast_S1x16x1_S4096x16x1_0_1_2 : S1x16x1.BroadcastsInDim S4096x16x1 (![0, 1, 2] : Fin 3 → Fin S4096x16x1.rank)
  bcast_S64_S1x1x64_2 : S64.BroadcastsInDim S1x1x64 (![2] : Fin 1 → Fin S1x1x64.rank)
  bcast_S4096x1x1_S4096x1x64_0_1_2 : S4096x1x1.BroadcastsInDim S4096x1x64 (![0, 1, 2] : Fin 3 → Fin S4096x1x64.rank)
  bcast_S1x1x64_S4096x1x64_0_1_2 : S1x1x64.BroadcastsInDim S4096x1x64 (![0, 1, 2] : Fin 3 → Fin S4096x1x64.rank)
  bcast_S4096x16x1_S4096x16x64_0_1_2 : S4096x16x1.BroadcastsInDim S4096x16x64 (![0, 1, 2] : Fin 3 → Fin S4096x16x64.rank)
  bcast_S4096x1x64_S4096x16x64_0_1_2 : S4096x1x64.BroadcastsInDim S4096x16x64 (![0, 1, 2] : Fin 3 → Fin S4096x16x64.rank)
  bcast_S4194304_S1x4194304_1 : S4194304.BroadcastsInDim S1x4194304 (![1] : Fin 1 → Fin S1x4194304.rank)
  concatenates_S1x4194304_S1x4194304_S2x4194304_d0 : Shape.Concatenates [S1x4194304, S1x4194304] S2x4194304 0
  shapeCasts_S4096x16x64x3_S4194304x3 : S4096x16x64x3.ShapeCasts S4194304x3
  shapeCasts_S4096x16x128_S65536x128 : S4096x16x128.ShapeCasts S65536x128
  shapeCasts_S4096x16x3x128_S65536x3x128 : S4096x16x3x128.ShapeCasts S65536x3x128

variable [Facts₀]

class Facts : Prop extends Facts₀ where

variable [Facts]
-- ==== Proof.Body.lean ====
/-
  What the kernel body computes at one grid point, entry by entry.

  The body sees a block `x0` of the transposed electron coordinates, laid out [component, row, electron] with 256 rows
  and 64 electrons, and the whole nucleus table `x1`, laid out [component, pair] with pair = nucleus · 64 + electron
  (each nucleus value repeated 64 times). For a component `c` it slices plane `c` of `x0`, drops the unit axis, and
  lays 16 copies side by side along the lane axis, so lane `p` of row `r` reads `x0[c, r, p mod 64]`; it slices row `c`
  of `x1` and repeats it down the 256 rows, so lane `p` reads `x1[c, p]`. Their difference is the displacement's
  component `c` for the pair `p` of row `r`.

  The mask word at (r, p) is one when the sum of the three squared components is below the squared cutoff, else zero.
  The three displacement planes are stored with a unit axis inserted: entry (r, 0, p) of each stored piece is the
  plane's entry (r, p).
-/
import proofs.«402141_j36490042146825_3_alg».proof.Proof.Gen.KernelIdeal.Skeleton
import Idealize.ShloMosaic.Lib.Pipeline.Value
import Idealize.ShloMosaic.Lib.ValueIdx

noncomputable section

namespace Cert.RadiusGraph.Body

open Idealize.ShloMosaic Idealize.ShloMosaic.ValueIdx Cert.KernelIdeal Cert.KernelIdeal.Gen

section Layout
variable {α : Type}

/-- Plane `c` of the electron block, tiled 16 times along the lanes, read at row `r`, lane `p`: the block at
    (c, r, p mod 64). -/
theorem tile_at (c : Fin 3) (x0 : S3x256x64.Idx → α) (h0 : S3x256x64.ShapeCasts S3x256x64)
    (hs : S3x256x64.Slices ![c.val, 0, 0] S1x256x64) (h1 : S1x256x64.ShapeCasts S256x64)
    (hc : Shape.Concatenates ((List.replicate 16 (⟨S256x64, shapeCast S256x64
        (extractStridedSlice S1x256x64 ![c.val, 0, 0] (shapeCast S3x256x64 x0 h0) hs) h1⟩ : (s : Shape) × (s.Idx → α))).map (·.1)) S256x1024 1)
    (r : Fin 256) (p : Fin 1024) (q : Fin 64) (hq : q.val = p.val % 64) :
    concatenate S256x1024 1 (List.replicate 16 ⟨S256x64, shapeCast S256x64
        (extractStridedSlice S1x256x64 ![c.val, 0, 0] (shapeCast S3x256x64 x0 h0) hs) h1⟩) hc (ix2 r p) = x0 (ix3 c r q) := by
  refine (concatenate_replicate_apply (t := S256x1024) (s₁ := S256x64) (1 : Fin 2) 16 _ hc rfl (ix2 r p) (ix2 r q) hq ?_).trans ?_
  · intro b hb
    match b, hb with
    | ⟨0, _⟩, _ => rfl
    | ⟨1, _⟩, hb => exact absurd rfl hb
  refine (shapeCast_apply _ h1 (ix2 r q) (ix3 (0 : Fin 1) r q) ?_).trans ?_
  · rw [Shape.rowMajor_val_three, Shape.rowMajor_val_two]
    show (0 * 256 + r.val) * 64 + q.val = r.val * 64 + q.val
    omega
  refine (extractStridedSlice_apply _ _ hs (ix3 (0 : Fin 1) r q) (ix3 c r q) ?_).trans ?_
  · intro a
    match a with
    | ⟨0, _⟩ => show c.val = c.val + 0; omega
    | ⟨1, _⟩ => show r.val = 0 + r.val; omega
    | ⟨2, _⟩ => show q.val = 0 + q.val; omega
  rw [shapeCast_self]

/-- Row `c` of the nucleus table, repeated down the rows, read at row `r`, lane `p`: the table at (c, p). -/
theorem row_at (c : Fin 3) (x1 : S3x1024.Idx → α) (h0 : S3x1024.ShapeCasts S3x1024)
    (hs : S3x1024.Slices ![c.val, 0] S1x1024) (h1 : S1x1024.ShapeCasts S1024) (h2 : S1024.ShapeCasts S1x1024)
    (hb : S1x1024.Broadcasts S256x1024) (r : Fin 256) (p : Fin 1024) :
    broadcastTo S256x1024 (shapeCast S1x1024 (shapeCast S1024
        (extractStridedSlice S1x1024 ![c.val, 0] (shapeCast S3x1024 x1 h0) hs) h1) h2) hb (ix2 r p) = x1 (ix2 c p) := by
  rw [shapeCast_shapeCast, shapeCast_self]
  refine (broadcastTo_apply _ hb (ix2 r p) (ix2 (0 : Fin 1) p) ?_).trans ?_
  · intro a
    match a with
    | ⟨0, _⟩ => rfl
    | ⟨1, _⟩ => rfl
  refine extractStridedSlice_apply _ _ hs (ix2 (0 : Fin 1) p) (ix2 c p) ?_
  intro a
  match a with
  | ⟨0, _⟩ => show c.val = c.val + 0; omega
  | ⟨1, _⟩ => show p.val = 0 + p.val; omega

end Layout

variable {F : FTy → Type} [FloatOps F]

/-- Component 0 of the displacement at row `r`, pair `p`. -/
theorem dx_at (x0 : Vec F S3x256x64 .f32) (x1 : Vec F S3x1024 .f32) (r : Fin 256) (p : Fin 1024) (q : Fin 64)
    (hq : q.val = p.val % 64) :
    k0_pay4 x0 x1 (ix2 r p) = FloatOps.subf (x0 (ix3 (0 : Fin 3) r q)) (x1 (ix2 (0 : Fin 3) p)) := by
  unfold k0_pay4 k0_pay2 k0_pay3
  exact congrArg₂ FloatOps.subf (tile_at (0 : Fin 3) x0 _ _ _ _ r p q hq) (row_at (0 : Fin 3) x1 _ _ _ _ _ r p)

/-- Component 1 of the displacement at row `r`, pair `p`. -/
theorem dy_at (x0 : Vec F S3x256x64 .f32) (x1 : Vec F S3x1024 .f32) (r : Fin 256) (p : Fin 1024) (q : Fin 64)
    (hq : q.val = p.val % 64) :
    k0_pay5 x0 x1 (ix2 r p) = FloatOps.subf (x0 (ix3 (1 : Fin 3) r q)) (x1 (ix2 (1 : Fin 3) p)) := by
  unfold k0_pay5 k0_pay2 k0_pay3
  exact congrArg₂ FloatOps.subf (tile_at (1 : Fin 3) x0 _ _ _ _ r p q hq) (row_at (1 : Fin 3) x1 _ _ _ _ _ r p)

/-- Component 2 of the displacement at row `r`, pair `p`. -/
theorem dz_at (x0 : Vec F S3x256x64 .f32) (x1 : Vec F S3x1024 .f32) (r : Fin 256) (p : Fin 1024) (q : Fin 64)
    (hq : q.val = p.val % 64) :
    k0_pay6 x0 x1 (ix2 r p) = FloatOps.subf (x0 (ix3 (2 : Fin 3) r q)) (x1 (ix2 (2 : Fin 3) p)) := by
  unfold k0_pay6 k0_pay2 k0_pay3
  exact congrArg₂ FloatOps.subf (tile_at (2 : Fin 3) x0 _ _ _ _ r p q hq) (row_at (2 : Fin 3) x1 _ _ _ _ _ r p)

/-- The mask word at row `r`, pair `p`: one when the squared length of the displacement is below the squared
    cutoff, else zero. -/
theorem mask_word_at (x0 : Vec F S3x256x64 .f32) (x1 : Vec F S3x1024 .f32) (r : Fin 256) (p : Fin 1024) (q : Fin 64)
    (hq : q.val = p.val % 64) :
    k0_pay7 x0 x1 (ix2 r p)
      = Scalar.select (FloatOps.cmpf .olt
          (FloatOps.addf (FloatOps.addf
            (FloatOps.mulf (FloatOps.subf (x0 (ix3 (0 : Fin 3) r q)) (x1 (ix2 (0 : Fin 3) p)))
              (FloatOps.subf (x0 (ix3 (0 : Fin 3) r q)) (x1 (ix2 (0 : Fin 3) p))))
            (FloatOps.mulf (FloatOps.subf (x0 (ix3 (1 : Fin 3) r q)) (x1 (ix2 (1 : Fin 3) p)))
              (FloatOps.subf (x0 (ix3 (1 : Fin 3) r q)) (x1 (ix2 (1 : Fin 3) p)))))
            (FloatOps.mulf (FloatOps.subf (x0 (ix3 (2 : Fin 3) r q)) (x1 (ix2 (2 : Fin 3) p)))
              (FloatOps.subf (x0 (ix3 (2 : Fin 3) r q)) (x1 (ix2 (2 : Fin 3) p)))))
          (FloatOps.ofBits .f32 0x41C80000#32)) (1#32) (0#32) := by
  unfold k0_pay7
  show Scalar.select (FloatOps.cmpf .olt
      (FloatOps.addf (FloatOps.addf
        (FloatOps.mulf (k0_pay4 x0 x1 (ix2 r p)) (k0_pay4 x0 x1 (ix2 r p)))
        (FloatOps.mulf (k0_pay5 x0 x1 (ix2 r p)) (k0_pay5 x0 x1 (ix2 r p))))
        (FloatOps.mulf (k0_pay6 x0 x1 (ix2 r p)) (k0_pay6 x0 x1 (ix2 r p))))
      (FloatOps.ofBits .f32 0x41C80000#32)) (1#32) (0#32) = _
  rw [dx_at x0 x1 r p q hq, dy_at x0 x1 r p q hq, dz_at x0 x1 r p q hq]

/-- A plane stored with a unit axis inserted: entry (r, 0, p) of the stored piece is the plane's entry (r, p). -/
theorem add_unit_at {α : Type} (v : S256x1024.Idx → α) (h : S256x1024.ShapeCasts S256x1x1024) (y : S256x1x1024.Idx) :
    shapeCast S256x1x1024 v h y = v (ix2 (y 0) (y 2)) := by
  refine shapeCast_apply v h y (ix2 (y 0) (y 2)) ?_
  rw [Shape.rowMajor_val_two, Shape.rowMajor_val_three]
  have h1 : (y 1).val < 1 := (y 1).isLt
  show (y 0).val * 1024 + (y 2).val = ((y 0).val * 1 + (y 1).val) * 1024 + (y 2).val
  omega

end Cert.RadiusGraph.Body

end
-- ==== Proof.Spec.lean ====
/-
  What the two programs are to agree on, index by index.

  An edge is a triple (sample b, nucleus i, electron j), numbered n = (b · 16 + i) · 64 + j = b · 1024 + p with the
  pair index p = i · 64 + j; so b = n / 1024, p = n mod 1024, i = p / 64 and j = p mod 64.

  `edgeAttr` at (n, k) is component k of the displacement electron − nucleus of edge n,
  `coord_elec[b, j, k] − coord_nuc[i, k]`. `maskBit` at n says whether the squared length of that displacement,
  `(d_0 · d_0 + d_1 · d_1) + d_2 · d_2`, is below the squared cutoff 25.
-/
import Idealize.ShloMosaic.PureOps.Ideal
import Idealize.ShloMosaic.Lib.ValueIdx

noncomputable section

namespace Cert.RadiusGraph.Spec

open Idealize.ShloMosaic Idealize.ShloMosaic.ValueIdx

variable {F : FTy → Type} [FloatOps F]

/-- The electron a pair index names: the pair index modulo 64. -/
def elec (p : Fin 1024) : Fin 64 := ⟨p.val % 64, Nat.mod_lt _ (by decide)⟩
/-- The nucleus a pair index names: the pair index divided by 64. -/
def nucOf (p : Fin 1024) : Fin 16 := ⟨p.val / 64, by have := p.isLt; omega⟩
/-- The sample an edge index names. -/
def sampleOf (n : Fin 4194304) : Fin 4096 := ⟨n.val / 1024, by have := n.isLt; omega⟩
/-- The pair an edge index names. -/
def pairOf (n : Fin 4194304) : Fin 1024 := ⟨n.val % 1024, Nat.mod_lt _ (by decide)⟩

/-- Component `k` of the displacement of edge `n`. -/
def edgeComp (ce : Vec F (⟨3, ![4096, 64, 3]⟩ : Shape) .f32) (cn : Vec F (⟨2, ![16, 3]⟩ : Shape) .f32)
    (n : Fin 4194304) (k : Fin 3) : F .f32 :=
  FloatOps.subf (ce (ix3 (sampleOf n) (elec (pairOf n)) k)) (cn (ix2 (nucOf (pairOf n)) k))

/-- The displacement of every edge, [edge, component]. -/
def edgeAttr (ce : Vec F (⟨3, ![4096, 64, 3]⟩ : Shape) .f32) (cn : Vec F (⟨2, ![16, 3]⟩ : Shape) .f32) :
    Vec F (⟨2, ![4194304, 3]⟩ : Shape) .f32 :=
  fun i => edgeComp ce cn (i 0 : Fin 4194304) (i 1 : Fin 3)

/-- Whether edge `n` is within the cutoff, by the squared length. -/
def edgeBit (ce : Vec F (⟨3, ![4096, 64, 3]⟩ : Shape) .f32) (cn : Vec F (⟨2, ![16, 3]⟩ : Shape) .f32)
    (n : Fin 4194304) : BitVec 1 :=
  FloatOps.cmpf .olt
    (FloatOps.addf (FloatOps.addf
      (FloatOps.mulf (edgeComp ce cn n 0) (edgeComp ce cn n 0))
      (FloatOps.mulf (edgeComp ce cn n 1) (edgeComp ce cn n 1)))
      (FloatOps.mulf (edgeComp ce cn n 2) (edgeComp ce cn n 2)))
    (FloatOps.ofBits .f32 0x41C80000#32)

/-- The mask, [edge]. -/
def maskBit (ce : Vec F (⟨3, ![4096, 64, 3]⟩ : Shape) .f32) (cn : Vec F (⟨2, ![16, 3]⟩ : Shape) .f32) :
    Vec F (⟨1, ![4194304]⟩ : Shape) .i1 :=
  fun i => edgeBit ce cn (i 0 : Fin 4194304)

end Cert.RadiusGraph.Spec

end
-- ==== Proof.Region.lean ====
/-
  From one grid point to the whole arrays.

  The region runs 16 points; point `t` takes rows 256·t … 256·t + 255 of the transposed electron array
  `ceT` [component, sample, electron] together with the whole repeated nucleus table `cnRep` [component, pair], and
  writes rows 256·t … 256·t + 255 of two outputs: the displacement array [sample, component, pair] and the mask-word
  array [sample, pair].

  For any number of rows `B`, `comp A0 A1 k b p = A0[k, b, p mod 64] − A1[k, p]` is component `k` of the displacement
  of row `b`, pair `p`; `disp` lays it out [row, component, pair] and `maskWord` is one where the squared length is
  below the squared cutoff. At B = 256 these are what the body leaves in its two output buffers (the three stored
  planes tile the displacement buffer; each is one component). At B = 4096 they are the final arrays: a block of the
  4096-row function at point `t` is the 256-row function of the blocks at `t`, because row `b` of the block is row
  256·t + b of the array and the pair and component coordinates are not cut; and every row lies in the block of the
  point `row / 256`, so the blocks cover both arrays.
-/
import proofs.«402141_j36490042146825_3_alg».proof.Proof.Gen.KernelIdeal.Frame
import proofs.«402141_j36490042146825_3_alg».proof.Proof.Body
import proofs.«402141_j36490042146825_3_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.RadiusGraph.Region

open Cert.KernelIdeal Cert.KernelIdeal.Gen Cert.RadiusGraph.Body Cert.RadiusGraph.Spec

variable {F : FTy → Type} [FloatOps F]

/-- Component `k` of the displacement of row `b`, pair `p`. -/
def comp {B : Nat} (A0 : Vec F (⟨3, ![3, B, 64]⟩ : Shape) .f32) (A1 : Vec F S3x1024 .f32) (k : Fin 3) (b : Fin B) (p : Fin 1024) :
    F .f32 :=
  FloatOps.subf (A0 (ix3 k b (elec p))) (A1 (ix2 k p))

/-- The displacements, laid out [row, component, pair]. -/
def disp {B : Nat} (A0 : Vec F (⟨3, ![3, B, 64]⟩ : Shape) .f32) (A1 : Vec F S3x1024 .f32) :
    Vec F (⟨3, ![B, 3, 1024]⟩ : Shape) .f32 :=
  fun i => comp A0 A1 (i 1 : Fin 3) (i 0 : Fin B) (i 2 : Fin 1024)

/-- The mask word of row `b`, pair `p`. -/
def word {B : Nat} (A0 : Vec F (⟨3, ![3, B, 64]⟩ : Shape) .f32) (A1 : Vec F S3x1024 .f32) (b : Fin B) (p : Fin 1024) : BitVec 32 :=
  Scalar.select (FloatOps.cmpf .olt
      (FloatOps.addf (FloatOps.addf
        (FloatOps.mulf (comp A0 A1 0 b p) (comp A0 A1 0 b p))
        (FloatOps.mulf (comp A0 A1 1 b p) (comp A0 A1 1 b p)))
        (FloatOps.mulf (comp A0 A1 2 b p) (comp A0 A1 2 b p)))
      (FloatOps.ofBits .f32 0x41C80000#32)) (1#32) (0#32)

/-- The mask words, laid out [row, pair]. -/
def maskWord {B : Nat} (A0 : Vec F (⟨3, ![3, B, 64]⟩ : Shape) .f32) (A1 : Vec F S3x1024 .f32) :
    Vec F (⟨2, ![B, 1024]⟩ : Shape) .i32 :=
  fun i => word A0 A1 (i 0 : Fin B) (i 1 : Fin 1024)

theorem hz3 : (![0, 0, 0] : Fin 3 → Nat) = fun _ => 0 := funext fun a => by fin_cases a <;> rfl
theorem hz2 : (![0, 0] : Fin 2 → Nat) = fun _ => 0 := funext fun a => by fin_cases a <;> rfl

/-! ## What the body leaves in its two output buffers -/

/-- Plane `k` of the displacement buffer, as a rectangle of it: local index (r, 0, p) sits at (r, k, p). -/
theorem plane_emb (k : Fin 3) (inb : ∀ a, (![0, k.val, 0] : Fin 3 → Nat) a + S256x1x1024.size a ≤ S256x3x1024.size a)
    (x : S256x1x1024.Idx) :
    (Rect.unit (s := S256x3x1024) ![0, k.val, 0] S256x1x1024.size inb).emb x = ix3 (x 0 : Fin 256) k (x 2 : Fin 1024) := by
  funext a
  apply Fin.ext
  have h1 : (x 1).val < 1 := (x 1).isLt
  match a with
  | ⟨0, _⟩ => show 0 + 1 * (x 0).val = (x 0).val; omega
  | ⟨1, _⟩ => show k.val + 1 * (x 1).val = k.val; omega
  | ⟨2, _⟩ => show 0 + 1 * (x 2).val = (x 2).val; omega

/-- A plane that holds component `k`, stored with a unit axis inserted through plane `k`'s rectangle, agrees with
    the displacement function under that rectangle. -/
theorem piece_at (k : Fin 3) (inb : ∀ a, (![0, k.val, 0] : Fin 3 → Nat) a + S256x1x1024.size a ≤ S256x3x1024.size a)
    (x0 : Vec F S3x256x64 .f32) (x1 : Vec F S3x1024 .f32) (v : Vec F S256x1024 .f32) (h : S256x1024.ShapeCasts S256x1x1024)
    (hv : ∀ (r : Fin 256) (p : Fin 1024), v (ix2 r p) = comp x0 x1 k r p) (x : S256x1x1024.Idx) :
    shapeCast S256x1x1024 v h x = disp x0 x1 ((Rect.unit (s := S256x3x1024) ![0, k.val, 0] S256x1x1024.size inb).emb x) := by
  rw [plane_emb k inb x]
  exact (add_unit_at v h x).trans (hv _ _)

/-- The displacement buffer after the body. -/
theorem out2_eq (x0 : Vec F S3x256x64 .f32) (x1 : Vec F S3x1024 .f32) : out0_2 x0 x1 = disp x0 x1 := by
  funext y
  unfold out0_2
  simp only [View.ld_unit_zero (S := S3x256x64) hz3, View.ld_unit_zero (S := S3x1024) hz2]
  refine View.canon_apply_of_pieces (disp x0 x1) _ ?_ y (cover0_2 _ _ _ y)
  intro pc hpc
  simp only [List.mem_cons, List.mem_nil_iff, or_false] at hpc
  rcases hpc with rfl | rfl | rfl
  · intro x
    exact piece_at (2 : Fin 3) inb_S256x3x1024_S256x1x1024_0_2_0 x0 x1 (k0_pay6 x0 x1) _ (fun r p => dz_at x0 x1 r p (elec p) rfl) x
  · intro x
    exact piece_at (1 : Fin 3) inb_S256x3x1024_S256x1x1024_0_1_0 x0 x1 (k0_pay5 x0 x1) _ (fun r p => dy_at x0 x1 r p (elec p) rfl) x
  · intro x
    exact piece_at (0 : Fin 3) inb_S256x3x1024_S256x1x1024_0_0_0 x0 x1 (k0_pay4 x0 x1) _ (fun r p => dx_at x0 x1 r p (elec p) rfl) x

/-- The mask-word buffer after the body. -/
theorem out3_eq (x0 : Vec F S3x256x64 .f32) (x1 : Vec F S3x1024 .f32) : out0_3 x0 x1 = maskWord x0 x1 := by
  unfold out0_3
  rw [View.canon_unit_zero hz2]
  simp only [View.ld_unit_zero (S := S3x256x64) hz3, View.ld_unit_zero (S := S3x1024) hz2]
  funext y
  obtain ⟨r, p, rfl⟩ : ∃ (r : Fin 256) (p : Fin 1024), y = ix2 r p := ⟨y 0, y 1, eq_ix2 y⟩
  exact mask_word_at x0 x1 r p (elec p) rfl

end Cert.RadiusGraph.Region

end
-- ==== Proof.Arrays.lean ====
/-
  The two output arrays after all 16 points.

  Window 0 stages rows 256·t … 256·t + 255 of the transposed electron array (its block index is (0, t, 0) over
  blocks of size (3, 256, 64)); window 1 stages the whole nucleus table at every point; windows 2 and 3 write back
  rows 256·t … 256·t + 255 of the displacement array and of the mask-word array (block indices (t, 0, 0) and (t, 0)).
  So the component function of the blocks at point `t`, at row `b`, is the component function of the whole arrays at
  row 256·t + b; what point `t` writes back is therefore block `t` of the whole-array functions `disp` and `maskWord`.
  Row `i` lies in the block of point `i / 256`, so the sixteen blocks cover each array and each array ends holding its
  whole-array function.
-/
import proofs.«402141_j36490042146825_3_alg».proof.Proof.Region

set_option maxRecDepth 16384

noncomputable section

open Idealize.ShloMosaic Idealize.ShloMosaic.TcCoe Idealize.SL.Sem Idealize.ShloMosaic.ValueIdx
open Idealize.ShloMosaic.Pipeline (Dat)

namespace Cert.RadiusGraph.Arrays

open Cert.KernelIdeal Cert.KernelIdeal.Gen Cert.RadiusGraph.Body Cert.RadiusGraph.Region Cert.RadiusGraph.Spec

variable {F : FTy → Type} [FloatOps F]
variable (m : (ℓ : Loc nD τ sig) → Buf (Elt F) ℓ)

/-- The printed index maps, decided once over the 16 grid points. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- The transposed electron coordinates [component, sample, electron], as the region finds them. -/
abbrev ceT (c : Dev nD) : Vec F S3x4096x64 .f32 := V m c main_v0
/-- The repeated nucleus table [component, pair], as the region finds it. -/
abbrev cnRep (c : Dev nD) : Vec F S3x1024 .f32 := V m c main_v3

/-- Row `b` of the blocks at point `t` is row 256·t + b of the arrays. -/
theorem comp_blk (c : Dev nD) (t : Fin cfg0.N) (k : Fin 3) (b : Fin 256) (p : Fin 1024) (b' : Fin 4096)
    (hb : b'.val = t.val * 256 + b.val) :
    comp (iblk m c 0 t : Vec F S3x256x64 .f32) (iblk m c 1 t : Vec F S3x1024 .f32) k b p
      = comp (ceT m c) (cnRep m c) k b' p := by
  obtain ⟨e00, e01, e02, e10, e11, -⟩ := idx_facts t
  unfold comp
  refine congrArg₂ FloatOps.subf ?_ ?_
  · show V m c main_v0 (((cfg0.win 0).blk t).view.emb (ix3 k b (elec p))) = V m c main_v0 (ix3 k b' (elec p))
    congr 1
    funext a
    apply Fin.ext
    match a with
    | ⟨0, _⟩ => show win0_0.index t (0 : Fin 3) * 3 + 1 * k.val = k.val; rw [e00]; omega
    | ⟨1, _⟩ => show win0_0.index t (1 : Fin 3) * 256 + 1 * b.val = b'.val; rw [e01, hb]; omega
    | ⟨2, _⟩ => show win0_0.index t (2 : Fin 3) * 64 + 1 * (elec p).val = (elec p).val; rw [e02]; omega
  · show V m c main_v3 (((cfg0.win 1).blk t).view.emb (ix2 k p)) = V m c main_v3 (ix2 k p)
    congr 1
    funext a
    apply Fin.ext
    match a with
    | ⟨0, _⟩ => show win0_1.index t (0 : Fin 2) * 3 + 1 * k.val = k.val; rw [e10]; omega
    | ⟨1, _⟩ => show win0_1.index t (1 : Fin 2) * 1024 + 1 * p.val = p.val; rw [e11]; omega

/-- The row of the array that row `r` of point `t`'s block is. -/
def rowOf (t : Fin cfg0.N) (r : Fin 256) : Fin 4096 :=
  ⟨t.val * 256 + r.val, by have := t.isLt; have hN : cfg0.N = 16 := N_0; have := r.isLt; omega⟩

/-! ## The displacement array -/

/-- What point `t` writes back to the displacement array is block `t` of the whole-array displacement function. -/
theorem flushed2_eq (c : Dev nD) (t : Fin cfg0.N) :
    (dats m 0 c).flushed 2 t = ((cfg0.win 2).blk t).view.read (Elt F) (disp (ceT m c) (cnRep m c)) := by
  show (cfg0.win 2).cut (grid0.coords t) ((dats m 0 c).after 2 t) = _
  rw [after0_2]
  obtain ⟨-, -, -, -, -, e20, e21, e22, -⟩ := idx_facts t
  funext j
  show out0_2 (iblk m c 0 t) (iblk m c 1 t) j = disp (ceT m c) (cnRep m c) (((cfg0.win 2).blk t).view.emb j)
  refine (congrFun (out2_eq (iblk m c 0 t) (iblk m c 1 t)) j).trans ?_
  obtain ⟨r, k, p, rfl⟩ : ∃ (r : Fin 256) (k : Fin 3) (p : Fin 1024), j = ix3 r k p := ⟨j 0, j 1, j 2, eq_ix3 j⟩
  have hE : ((cfg0.win 2).blk t).view.emb (ix3 r k p) = ix3 (rowOf t r) k p := by
    funext a
    apply Fin.ext
    match a with
    | ⟨0, _⟩ => show win0_2.index t (0 : Fin 3) * 256 + 1 * r.val = t.val * 256 + r.val; rw [e20]; omega
    | ⟨1, _⟩ => show win0_2.index t (1 : Fin 3) * 3 + 1 * k.val = k.val; rw [e21]; omega
    | ⟨2, _⟩ => show win0_2.index t (2 : Fin 3) * 1024 + 1 * p.val = p.val; rw [e22]; omega
  rw [hE]
  exact comp_blk m c t k r p (rowOf t r) rfl

/-- Every entry of the displacement array lies in the block of the point `row / 256`. -/
theorem cover2 (i : S4096x3x1024.Idx) :
    ∃ t : Fin cfg0.N, (cfg0.win 2).flush t = true ∧ i ∈ ((cfg0.win 2).blk t).view.set := by
  have hN : cfg0.N = 16 := N_0
  have h0 : (i 0).val < 4096 := (i 0).isLt
  have h1 : (i 1).val < 3 := (i 1).isLt
  have h2 : (i 2).val < 1024 := (i 2).isLt
  obtain ⟨t, ht⟩ : ∃ t : Fin cfg0.N, t.val = (i 0).val / 256 := ⟨⟨(i 0).val / 256, by omega⟩, rfl⟩
  obtain ⟨-, -, -, -, -, e20, e21, e22, -⟩ := idx_facts t
  refine ⟨t, flush0_2 t, ?_⟩
  show i ∈ ((View.whole main_v4_0).slice (win0_2.rect t)).set
  rw [View.set_slice_whole, Rect.mem_set_unit]
  intro a
  match a with
  | ⟨0, _⟩ =>
    show win0_2.index t (0 : Fin 3) * 256 ≤ (i 0).val ∧ (i 0).val < win0_2.index t (0 : Fin 3) * 256 + 256
    rw [e20]; omega
  | ⟨1, _⟩ =>
    show win0_2.index t (1 : Fin 3) * 3 ≤ (i 1).val ∧ (i 1).val < win0_2.index t (1 : Fin 3) * 3 + 3
    rw [e21]; omega
  | ⟨2, _⟩ =>
    show win0_2.index t (2 : Fin 3) * 1024 ≤ (i 2).val ∧ (i 2).val < win0_2.index t (2 : Fin 3) * 1024 + 1024
    rw [e22]; omega

/-- The displacement array after the run. -/
theorem final2 (c : Dev nD) : (dats m 0 c).arrAt 2 cfg0.N = disp (ceT m c) (cnRep m c) :=
  (dats m 0 c).arrAt_eq_of_cover 2 (disp (ceT m c) (cnRep m c)) (fun t _ => flushed2_eq m c t) cover2

/-! ## The mask-word array -/

/-- What point `t` writes back to the mask-word array is block `t` of the whole-array mask-word function. -/
theorem flushed3_eq (c : Dev nD) (t : Fin cfg0.N) :
    (dats m 0 c).flushed 3 t = ((cfg0.win 3).blk t).view.read (Elt F) (maskWord (ceT m c) (cnRep m c)) := by
  show (cfg0.win 3).cut (grid0.coords t) ((dats m 0 c).after 3 t) = _
  rw [after0_3]
  obtain ⟨-, -, -, -, -, -, -, -, e30, e31⟩ := idx_facts t
  funext j
  show out0_3 (iblk m c 0 t) (iblk m c 1 t) j = maskWord (ceT m c) (cnRep m c) (((cfg0.win 3).blk t).view.emb j)
  refine (congrFun (out3_eq (iblk m c 0 t) (iblk m c 1 t)) j).trans ?_
  obtain ⟨r, p, rfl⟩ : ∃ (r : Fin 256) (p : Fin 1024), j = ix2 r p := ⟨j 0, j 1, eq_ix2 j⟩
  have hE : ((cfg0.win 3).blk t).view.emb (ix2 r p) = ix2 (rowOf t r) p := by
    funext a
    apply Fin.ext
    match a with
    | ⟨0, _⟩ => show win0_3.index t (0 : Fin 2) * 256 + 1 * r.val = t.val * 256 + r.val; rw [e30]; omega
    | ⟨1, _⟩ => show win0_3.index t (1 : Fin 2) * 1024 + 1 * p.val = p.val; rw [e31]; omega
  rw [hE]
  show word _ _ r p = word _ _ (rowOf t r) p
  unfold word
  rw [comp_blk m c t 0 r p (rowOf t r) rfl, comp_blk m c t 1 r p (rowOf t r) rfl, comp_blk m c t 2 r p (rowOf t r) rfl]

/-- Every entry of the mask-word array lies in the block of the point `row / 256`. -/
theorem cover3 (i : S4096x1024.Idx) :
    ∃ t : Fin cfg0.N, (cfg0.win 3).flush t = true ∧ i ∈ ((cfg0.win 3).blk t).view.set := by
  have hN : cfg0.N = 16 := N_0
  have h0 : (i 0).val < 4096 := (i 0).isLt
  have h1 : (i 1).val < 1024 := (i 1).isLt
  obtain ⟨t, ht⟩ : ∃ t : Fin cfg0.N, t.val = (i 0).val / 256 := ⟨⟨(i 0).val / 256, by omega⟩, rfl⟩
  obtain ⟨-, -, -, -, -, -, -, -, e30, e31⟩ := idx_facts t
  refine ⟨t, flush0_3 t, ?_⟩
  show i ∈ ((View.whole main_v4_1).slice (win0_3.rect t)).set
  rw [View.set_slice_whole, Rect.mem_set_unit]
  intro a
  match a with
  | ⟨0, _⟩ =>
    show win0_3.index t (0 : Fin 2) * 256 ≤ (i 0).val ∧ (i 0).val < win0_3.index t (0 : Fin 2) * 256 + 256
    rw [e30]; omega
  | ⟨1, _⟩ =>
    show win0_3.index t (1 : Fin 2) * 1024 ≤ (i 1).val ∧ (i 1).val < win0_3.index t (1 : Fin 2) * 1024 + 1024
    rw [e31]; omega

/-- The mask-word array after the run. -/
theorem final3 (c : Dev nD) : (dats m 0 c).arrAt 3 cfg0.N = maskWord (ceT m c) (cnRep m c) :=
  (dats m 0 c).arrAt_eq_of_cover 3 (maskWord (ceT m c) (cnRep m c)) (fun t _ => flushed3_eq m c t) cover3

end Cert.RadiusGraph.Arrays

end
-- ==== Proof.MaskLaw.lean ====
/-
  The one law that joins the two masks, over the reals.

  The reference marks an edge when the Euclidean length of the displacement is under the cutoff,
  `√(0 + ((d_0 · d_0 + d_1 · d_1) + d_2 · d_2)) < 5`; the kernel skips the root and tests the squared length against the squared
  cutoff, `(d_0 · d_0 + d_1 · d_1) + d_2 · d_2 < 25`, writes the answer as a 32-bit word (one or zero) and the
  host turns that word back into a bit by asking whether it differs from zero.

  For real displacements the sum of squares `s` is a non-negative real, the root is the real root, and
  `√s < 5 ⟺ s < 5²`. Both cutoffs are exact binary fractions (5 and 25), so the words denote exactly those
  reals. The word round trip is the identity on a bit: a one selects the word 1, which differs from zero; a zero
  selects the word 0, which does not.
-/
import Idealize.ShloMosaic.PureOps.Ideal
import Idealize.ShloMosaic.PureOps.Ideal.Laws

noncomputable section

namespace Cert.RadiusGraph

open Idealize.ShloMosaic

/-- The reference's cutoff word denotes the real 5. -/
theorem cutoff_word : Ideal.ofBits .f32 0x40A00000#32 = ((5 : ℝ) : EReal) := by
  simp [Ideal.ofBits, Ideal.ieee, -EReal.coe_mul]; norm_num

/-- The kernel's squared-cutoff word denotes the real 25. -/
theorem cutoff_sq_word : Ideal.ofBits .f32 0x41C80000#32 = ((25 : ℝ) : EReal) := by
  simp [Ideal.ofBits, Ideal.ieee, -EReal.coe_mul]; norm_num

/-- A bit written as the word one-or-zero and read back by "differs from zero" is the bit. -/
theorem word_round_trip (c : BitVec 1) :
    IntOp.cmpi .ne (Scalar.select c (1#32) (0#32)) (0#32) = c := by
  rcases (by decide : ∀ c : BitVec 1, c = 0#1 ∨ c = 1#1) c with rfl | rfl <;> decide

/-- For real displacements the root test against 5 and the squared test against 25 give the same bit. -/
theorem mask_law (d0 d1 d2 : ℝ) :
    Ideal.cmp .olt (Ideal.sqrt (Ideal.ofBits .f32 0x00000000#32
        + (((d0 : EReal) * (d0 : EReal) + (d1 : EReal) * (d1 : EReal)) + (d2 : EReal) * (d2 : EReal))))
      (Ideal.ofBits .f32 0x40A00000#32)
    = Ideal.cmp .olt (((d0 : EReal) * (d0 : EReal) + (d1 : EReal) * (d1 : EReal)) + (d2 : EReal) * (d2 : EReal))
      (Ideal.ofBits .f32 0x41C80000#32) := by
  have hs : 0 ≤ d0 * d0 + d1 * d1 + d2 * d2 :=
    add_nonneg (add_nonneg (mul_self_nonneg d0) (mul_self_nonneg d1)) (mul_self_nonneg d2)
  have e1 : Ideal.ofBits .f32 0x00000000#32
        + (((d0 : EReal) * (d0 : EReal) + (d1 : EReal) * (d1 : EReal)) + (d2 : EReal) * (d2 : EReal))
      = ((d0 * d0 + d1 * d1 + d2 * d2 : ℝ) : EReal) := by
    rw [Ideal.ofBits_zero_f32, zero_add]
    simp only [← EReal.coe_mul, ← EReal.coe_add]
  have e2 : ((d0 : EReal) * (d0 : EReal) + (d1 : EReal) * (d1 : EReal)) + (d2 : EReal) * (d2 : EReal)
      = ((d0 * d0 + d1 * d1 + d2 * d2 : ℝ) : EReal) := by
    simp only [← EReal.coe_mul, ← EReal.coe_add]
  rw [e1, e2, cutoff_word, cutoff_sq_word, Ideal.sqrt_coe, if_neg (not_lt.mpr hs)]
  unfold Ideal.cmp
  congr 1
  simp only [EReal.coe_lt_coe_iff]
  refine decide_eq_decide.mpr ?_
  rw [Real.sqrt_lt' (by norm_num : (0 : ℝ) < 5)]
  norm_num

end Cert.RadiusGraph

end
-- ==== Proof.Host.lean ====
/-
  The host operations around the region, and the kernel's results as functions of its arguments.

  Before the region the host transposes `coord_elec` [sample, electron, component] to [component, sample, electron],
  so `ceT[k, b, e] = coord_elec[b, e, k]`; and it repeats each nucleus row 64 times, flattens (nucleus, copy) to a
  pair index and transposes, so `cnRep[k, p] = coord_nuc[p / 64, k]`. Hence component `k` of the displacement of row
  `b`, pair `p` of the whole arrays is `coord_elec[b, p mod 64, k] − coord_nuc[p / 64, k]`.

  After the region the host swaps the last two axes of the displacement array and flattens (sample, pair) to the
  edge index n = sample · 1024 + pair, so entry (n, k) of the result reads the displacement array at
  (n / 1024, k, n mod 1024): component `k` of the displacement of edge `n`. It flattens the mask words the same way
  and keeps "word ≠ 0", which is the comparison bit itself.
-/
import proofs.«402141_j36490042146825_3_alg».proof.Proof.Arrays
import proofs.«402141_j36490042146825_3_alg».proof.Proof.MaskLaw
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.RadiusGraph.Host

open Cert.KernelIdeal Cert.KernelIdeal.Gen Cert.RadiusGraph.Region Cert.RadiusGraph.Arrays Cert.RadiusGraph.Spec

variable {F : FTy → Type} [FloatOps F]
variable (m : (ℓ : Loc nD τ sig) → Buf (Elt F) ℓ)

/-- `coord_elec` as launched. -/
abbrev ce (c : Dev nD) : Vec F S4096x64x3 .f32 := m ((c : Thread nD τ).loc main_arg2)
/-- `coord_nuc` as launched. -/
abbrev cn (c : Dev nD) : Vec F S16x3 .f32 := m ((c : Thread nD τ).loc main_arg3)

/-! ## Before the region -/

theorem ceT_eq (c : Dev nD) :
    V m c main_v0 = transpose S3x4096x64 [2, 0, 1] (ce m c) transposes_S4096x64x3_S3x4096x64_2_0_1 := by
  show StableHlo.after hostOps0 (fun b => m (c, b)) (Proc.devRef .tc main_v0) = _
  after_results

theorem cnRep_eq (c : Dev nD) :
    V m c main_v3 = transpose S3x1024 [1, 0]
      (shapeCast S1024x3 (broadcastInDim S16x64x3 ![0, 2] bcast_S16x3_S16x64x3_0_2 (cn m c)) shapeCasts_S16x64x3_S1024x3)
      transposes_S1024x3_S3x1024_1_0 := by
  show StableHlo.after hostOps0 (fun b => m (c, b)) (Proc.devRef .tc main_v3) = _
  after_results <;> rfl

/-- The transposed electron array at (component, sample, electron). -/
theorem ceT_at (c : Dev nD) (k : Fin 3) (b : Fin 4096) (e : Fin 64) :
    ceT m c (ix3 k b e) = ce m c (ix3 b e k) := by
  show V m c main_v0 (ix3 k b e) = _
  rw [ceT_eq]
  refine transpose_apply [2, 0, 1] _ transposes_S4096x64x3_S3x4096x64_2_0_1 (ix3 k b e) (ix3 b e k) ?_
  intro a
  match a with
  | ⟨0, _⟩ => rfl
  | ⟨1, _⟩ => rfl
  | ⟨2, _⟩ => rfl

/-- The repeated nucleus table at (component, pair). -/
theorem cnRep_at (c : Dev nD) (k : Fin 3) (p : Fin 1024) :
    cnRep m c (ix2 k p) = cn m c (ix2 (nucOf p) k) := by
  show V m c main_v3 (ix2 k p) = _
  rw [cnRep_eq]
  refine (transpose_apply [1, 0] _ transposes_S1024x3_S3x1024_1_0 (ix2 k p) (ix2 p k) ?_).trans ?_
  · intro a
    match a with
    | ⟨0, _⟩ => rfl
    | ⟨1, _⟩ => rfl
  refine (shapeCast_apply _ shapeCasts_S16x64x3_S1024x3 (ix2 p k) (ix3 (nucOf p) (elec p) k) ?_).trans ?_
  · rw [Shape.rowMajor_val_three, Shape.rowMajor_val_two]
    show (p.val / 64 * 64 + p.val % 64) * 3 + k.val = p.val * 3 + k.val
    omega
  refine broadcastInDim_apply _ bcast_S16x3_S16x64x3_0_2 (cn m c) (ix3 (nucOf p) (elec p) k) (ix2 (nucOf p) k) ?_
  intro a
  match a with
  | ⟨0, _⟩ => show (nucOf p).val = if (16 : Nat) = 1 then 0 else (nucOf p).val; rw [if_neg (by decide)]
  | ⟨1, _⟩ => show k.val = if (3 : Nat) = 1 then 0 else k.val; rw [if_neg (by decide)]

/-- Component `k` of the displacement of edge `n`, read off the arrays the region finds. -/
theorem comp_arr (c : Dev nD) (n : Fin 4194304) (k : Fin 3) :
    comp (ceT m c) (cnRep m c) k (sampleOf n) (pairOf n) = edgeComp (ce m c) (cn m c) n k := by
  unfold comp edgeComp
  rw [ceT_at, cnRep_at]

/-! ## After the region -/

/-- The displacement array as the host tail finds it. -/
theorem arr2 (c : Dev nD) :
    Pipeline.withArrays (cfgs 0).spec c (V0 m c) (fun w => (dats m 0 c).arrAt w (cfgs 0).N) (Proc.devRef .tc main_v4_0)
      = disp (ceT m c) (cnRep m c) :=
  (Pipeline.withArrays_arr spec0 launch0.win.arr_inj c _ _ 2).trans (final2 m c)

/-- The mask-word array as the host tail finds it. -/
theorem arr3 (c : Dev nD) :
    Pipeline.withArrays (cfgs 0).spec c (V0 m c) (fun w => (dats m 0 c).arrAt w (cfgs 0).N) (Proc.devRef .tc main_v4_1)
      = maskWord (ceT m c) (cnRep m c) :=
  (Pipeline.withArrays_arr spec0 launch0.win.arr_inj c _ _ 3).trans (final3 m c)

/-- The kernel's `edge_attr` result. -/
theorem edge_attr_eq (c : Dev nD) :
    Pipeline.afterTail₀ cfgs (dats m) 0 (V0 m) [hostOps1] c main_v6 = edgeAttr (ce m c) (cn m c) := by
  unfold Pipeline.afterTail₀
  show StableHlo.after hostOps1 _ (Proc.devRef .tc main_v6) = _
  after_results
  show shapeCast S4194304x3 (transpose S4096x1024x3 [0, 2, 1]
      (Pipeline.withArrays (cfgs 0).spec c (V0 m c) (fun w => (dats m 0 c).arrAt w (cfgs 0).N) (Proc.devRef .tc main_v4_0))
      transposes_S4096x3x1024_S4096x1024x3_0_2_1) shapeCasts_S4096x1024x3_S4194304x3 = _
  rw [arr2]
  funext i
  obtain ⟨n, k, rfl⟩ : ∃ (n : Fin 4194304) (k : Fin 3), i = ix2 n k := ⟨i 0, i 1, eq_ix2 i⟩
  refine (shapeCast_apply _ shapeCasts_S4096x1024x3_S4194304x3 (ix2 n k) (ix3 (sampleOf n) (pairOf n) k) ?_).trans ?_
  · rw [Shape.rowMajor_val_three, Shape.rowMajor_val_two]
    show (n.val / 1024 * 1024 + n.val % 1024) * 3 + k.val = n.val * 3 + k.val
    omega
  refine (transpose_apply [0, 2, 1] _ transposes_S4096x3x1024_S4096x1024x3_0_2_1 (ix3 (sampleOf n) (pairOf n) k)
    (ix3 (sampleOf n) k (pairOf n)) ?_).trans ?_
  · intro a
    match a with
    | ⟨0, _⟩ => rfl
    | ⟨1, _⟩ => rfl
    | ⟨2, _⟩ => rfl
  exact comp_arr m c n k

/-- The kernel's mask result. -/
theorem mask_eq (c : Dev nD) :
    Pipeline.afterTail₀ cfgs (dats m) 0 (V0 m) [hostOps1] c main_v9 = maskBit (ce m c) (cn m c) := by
  unfold Pipeline.afterTail₀
  show StableHlo.after hostOps1 _ (Proc.devRef .tc main_v9) = _
  after_results
  show cmpi .ne (shapeCast S4194304
      (Pipeline.withArrays (cfgs 0).spec c (V0 m c) (fun w => (dats m 0 c).arrAt w (cfgs 0).N) (Proc.devRef .tc main_v4_1))
      shapeCasts_S4096x1024_S4194304) (broadcastInDim S4194304 ![] bcast_S_S4194304 (constantI S_ 32 0#32)) = _
  rw [arr3]
  funext i
  obtain ⟨n, rfl⟩ : ∃ n : Fin 4194304, i = ix1 n := ⟨i 0, eq_ix1 i⟩
  show IntOp.cmpi .ne (shapeCast S4194304 (maskWord (ceT m c) (cnRep m c)) shapeCasts_S4096x1024_S4194304 (ix1 n))
      (broadcastInDim S4194304 ![] bcast_S_S4194304 (constantI S_ 32 0#32) (ix1 n)) = edgeBit (ce m c) (cn m c) n
  rw [shapeCast_apply _ shapeCasts_S4096x1024_S4194304 (ix1 n) (ix2 (sampleOf n) (pairOf n)) (by
      rw [Shape.rowMajor_val_two, Shape.rowMajor_val_one]
      show n.val / 1024 * 1024 + n.val % 1024 = n.val
      omega),
    broadcastInDim_apply _ bcast_S_S4194304 (constantI S_ 32 0#32) (ix1 n) (fun a => a.elim0) (fun a => a.elim0)]
  show IntOp.cmpi .ne (word (ceT m c) (cnRep m c) (sampleOf n) (pairOf n)) (0#32) = _
  unfold word edgeBit
  rw [word_round_trip, comp_arr, comp_arr, comp_arr]

end Cert.RadiusGraph.Host

end
-- ==== Proof.Ref.lean ====
/-
  The reference's results as the same functions of its arguments.

  The reference broadcasts `coord_elec` over the nuclei and `coord_nuc` over samples and electrons and subtracts,
  so its four-axis displacement at (b, i, j, k) is `coord_elec[b, j, k] − coord_nuc[i, k]`. Flattening
  (b, i, j) to the edge index n = (b · 16 + i) · 64 + j gives b = n / 1024, i = (n mod 1024) / 64, j = (n mod 1024) mod 64:
  entry (n, k) of its `edge_attr` is component k of the displacement of edge n. This holds at any instance.

  Its mask at edge n is `√(0 + ((d_0 · d_0 + d_1 · d_1) + d_2 · d_2)) < 5` over the three components of that
  displacement. When the coordinates are real numbers each component is a real, and the law of the masks turns this
  into the squared test against 25.
-/
import proofs.«402141_j36490042146825_3_alg».proof.Proof.Gen.ReferenceIdeal.Read
import proofs.«402141_j36490042146825_3_alg».proof.Proof.Spec
import proofs.«402141_j36490042146825_3_alg».proof.Proof.MaskLaw

noncomputable section

open Idealize.ShloMosaic Idealize.ShloMosaic.ValueIdx

namespace Cert.RadiusGraph.Ref

open Cert.ReferenceIdeal Cert.ReferenceIdeal.Read Cert.RadiusGraph Cert.RadiusGraph.Spec

variable {F : FTy → Type} [FloatOps F]

/-- The reference's four-axis displacement at (sample, nucleus, electron, component). -/
theorem v4_at (x2 : Vec F S4096x64x3 .f32) (x3 : Vec F S16x3 .f32) (b : Fin 4096) (i : Fin 16) (j : Fin 64) (k : Fin 3) :
    val_main_v4 (F := F) x2 x3 (ix4 b i j k) = FloatOps.subf (x2 (ix3 b j k)) (x3 (ix2 i k)) := by
  rw [val_main_v4_apply, val_main_v2_apply, val_main_v0_apply, val_main_v3_apply, val_main_v1_apply]
  refine congrArg₂ FloatOps.subf (congrArg x2 ?_) (congrArg x3 ?_)
  · funext a
    match a with
    | ⟨0, _⟩ => rfl
    | ⟨1, _⟩ => rfl
    | ⟨2, _⟩ => rfl
  · funext a
    match a with
    | ⟨0, _⟩ => rfl
    | ⟨1, _⟩ => rfl

/-- The four coordinates of edge `n`, component `k`. -/
abbrev at4 (n : Fin 4194304) (k : Fin 3) : S4096x16x64x3.Idx :=
  ix4 (sampleOf n) (nucOf (pairOf n)) (elec (pairOf n)) k

/-- The reference's displacement of edge `n`, component `k`. -/
theorem v4_edge (x2 : Vec F S4096x64x3 .f32) (x3 : Vec F S16x3 .f32) (n : Fin 4194304) (k : Fin 3) :
    val_main_v4 (F := F) x2 x3 (at4 n k) = edgeComp x2 x3 n k :=
  v4_at x2 x3 _ _ _ _

/-- The reference's `edge_attr` result. -/
theorem edge_attr_eq (x2 : Vec F S4096x64x3 .f32) (x3 : Vec F S16x3 .f32) :
    val_main_v32 (F := F) x2 x3 = edgeAttr x2 x3 := by
  funext i
  obtain ⟨n, k, rfl⟩ : ∃ (n : Fin 4194304) (k : Fin 3), i = ix2 n k := ⟨i 0, i 1, eq_ix2 i⟩
  rw [val_main_v32_apply]
  have hi : idx_main_v32 (ix2 n k) = at4 n k := by
    funext a
    apply Fin.ext
    have hn := n.isLt
    have hk := k.isLt
    match a with
    | ⟨0, _⟩ => show (n.val * 3 + k.val) / 3072 = n.val / 1024; omega
    | ⟨1, _⟩ => show (n.val * 3 + k.val) / 192 % 16 = n.val % 1024 / 64; omega
    | ⟨2, _⟩ => show (n.val * 3 + k.val) / 3 % 64 = n.val % 1024 % 64; omega
    | ⟨3, _⟩ => show (n.val * 3 + k.val) % 3 = k.val; omega
  rw [hi]
  exact v4_edge x2 x3 n k

/-- The reference's mask result, for real-valued coordinates. -/
theorem mask_eq (x2 : Vec Ideal S4096x64x3 .f32) (x3 : Vec Ideal S16x3 .f32)
    (h2 : ∀ i, ∃ r : ℝ, x2 i = (r : EReal)) (h3 : ∀ i, ∃ r : ℝ, x3 i = (r : EReal)) :
    val_main_v8 (F := Ideal) x2 x3 = maskBit x2 x3 := by
  funext i
  obtain ⟨n, rfl⟩ : ∃ n : Fin 4194304, i = ix1 n := ⟨i 0, eq_ix1 i⟩
  rw [val_main_v8_apply, val_main_v7_apply, val_main_v5_apply, val_main_call0_v1_apply, val_main_v6_apply,
    val_main_cst_apply, val_main_call0_cst_apply, Fin.sum_univ_three]
  simp only [val_main_call0_v0_apply]
  have hi : ∀ k : Fin 3, idx_main_call0_v1 (idx_main_v8 (ix1 n)) k = at4 n k := by
    intro k
    funext a
    apply Fin.ext
    have hn := n.isLt
    match a with
    | ⟨0, _⟩ => rfl
    | ⟨1, _⟩ => show n.val / 64 % 16 = n.val % 1024 / 64; omega
    | ⟨2, _⟩ => show n.val % 64 = n.val % 1024 % 64; omega
    | ⟨3, _⟩ => rfl
  rw [hi 0, hi 1, hi 2, v4_edge, v4_edge, v4_edge]
  show _ = edgeBit x2 x3 n
  unfold edgeBit edgeComp
  obtain ⟨a0, ha0⟩ := h2 (ix3 (sampleOf n) (elec (pairOf n)) 0)
  obtain ⟨a1, ha1⟩ := h2 (ix3 (sampleOf n) (elec (pairOf n)) 1)
  obtain ⟨a2, ha2⟩ := h2 (ix3 (sampleOf n) (elec (pairOf n)) 2)
  obtain ⟨b0, hb0⟩ := h3 (ix2 (nucOf (pairOf n)) 0)
  obtain ⟨b1, hb1⟩ := h3 (ix2 (nucOf (pairOf n)) 1)
  obtain ⟨b2, hb2⟩ := h3 (ix2 (nucOf (pairOf n)) 2)
  rw [ha0, ha1, ha2, hb0, hb1, hb2]
  show Ideal.cmp .olt (Ideal.sqrt (Ideal.ofBits .f32 0x00000000#32
        + ((((a0 : EReal) - (b0 : EReal)) * ((a0 : EReal) - (b0 : EReal))
          + ((a1 : EReal) - (b1 : EReal)) * ((a1 : EReal) - (b1 : EReal)))
          + ((a2 : EReal) - (b2 : EReal)) * ((a2 : EReal) - (b2 : EReal)))))
      (Ideal.ofBits .f32 0x40A00000#32)
    = Ideal.cmp .olt ((((a0 : EReal) - (b0 : EReal)) * ((a0 : EReal) - (b0 : EReal))
          + ((a1 : EReal) - (b1 : EReal)) * ((a1 : EReal) - (b1 : EReal)))
          + ((a2 : EReal) - (b2 : EReal)) * ((a2 : EReal) - (b2 : EReal)))
      (Ideal.ofBits .f32 0x41C80000#32)
  simp only [← EReal.coe_sub]
  exact mask_law _ _ _

end Cert.RadiusGraph.Ref

end
-- ==== Proof.LibERealRows.lean ====
/-
  General facts about rows of real numbers inside the extended reals, as float programs read at exact arithmetic
  meet them.

  * The patterns of `-∞`, `+∞` and `1.0` denote `⊥`, `⊤` and `1`.
  * An extended real whose absolute value `max x (−x)` compares below `+∞` is a real.
  * A finite sum of coerced reals is the coerced sum; a finite sum of products of reals is a real.
  * The maximum of a nonempty row of reals, folded from `-∞`, is a real.
  * A softmax does not see a common shift: for a real row `s` and a real `M`,
    `exp (s j − M) / Σ exp (s i − M) = exp (s j) · (1 / Σ exp (s i))`, the quotient and the product with the reciprocal
    being the same because both sums are positive reals.
-/
import Idealize.ShloMosaic.PureOps.Ideal
import Idealize.ShloMosaic.PureOps.Ideal.Laws
import Mathlib.Analysis.SpecialFunctions.Exp

noncomputable section

namespace Cert.ERealRows

open Idealize.ShloMosaic

/-! ## Float literals as extended reals -/

/-- The pattern of `-∞` denotes the bottom element. -/
theorem ofBits_negInf : Ideal.ofBits .f32 0xFF800000#32 = ⊥ := by
  simp [Ideal.ofBits, Ideal.ieee]

/-- The pattern of `+∞` denotes the top element. -/
theorem ofBits_posInf : Ideal.ofBits .f32 0x7F800000#32 = ⊤ := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- An extended real whose absolute value compares below `+∞` is a real: `max x (−x)` is `+∞` at both infinities. -/
theorem real_of_abs_lt_inf (x : EReal) (h : Ideal.cmp .olt (max x (-x)) (Ideal.ofBits .f32 0x7F800000#32) = 1#1) :
    ∃ r : ℝ, x = (r : EReal) := by
  rw [ofBits_posInf] at h
  have hlt : max x (-x) < ⊤ := by
    by_contra hn
    simp [Ideal.cmp, hn] at h
  induction x using EReal.rec with
  | bot => simp at hlt
  | coe r => exact ⟨r, rfl⟩
  | top => simp at hlt

/-! ## Sums and maxima of real rows -/

section Rows

variable {ι : Type*} [Fintype ι]

/-- A finite sum of coerced reals is the coerced sum. -/
theorem coe_sum (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of products of coerced reals is a real. -/
theorem sum_mul_real {κ : Type*} [Fintype κ] (u v : κ → ℝ) : ∃ r : ℝ, ∑ k, (u k : EReal) * (v k : EReal) = (r : EReal) :=
  ⟨∑ k, u k * v k, by rw [← coe_sum]; exact Finset.sum_congr rfl fun k _ => (EReal.coe_mul _ _).symm⟩

/-- The maximum of a nonempty row of reals, folded from `-∞`, is a real: it is below `+∞` because every entry is,
    and above `-∞` because some entry is. -/
theorem fold_max_real [Nonempty ι] (f : ι → ℝ) :
    ∃ M : ℝ, (Finset.univ : Finset ι).fold max (⊥ : EReal) (fun j => (f j : EReal)) = (M : EReal) := by
  have h1 : (Finset.univ : Finset ι).fold max (⊥ : EReal) (fun j => (f j : EReal)) ≠ ⊤ := by
    refine ne_of_lt ?_
    rw [Finset.fold_max_lt]
    exact ⟨bot_lt_top, fun x _ => EReal.coe_lt_top _⟩
  have h2 : (Finset.univ : Finset ι).fold max (⊥ : EReal) (fun j => (f j : EReal)) ≠ ⊥ := by
    obtain ⟨j0⟩ := ‹Nonempty ι›
    refine ne_of_gt (lt_of_lt_of_le (EReal.bot_lt_coe (f j0)) ?_)
    rw [Finset.le_fold_max]
    exact Or.inr ⟨j0, Finset.mem_univ _, le_rfl⟩
  exact ⟨_, (EReal.coe_toReal h1 h2).symm⟩

/-- A softmax does not see a common shift, and its quotient is the product with the reciprocal of the unshifted sum:
    `exp (s j − M) = exp (s j) / exp M` with `exp M` a positive real common to numerator and denominator. -/
theorem softmax_shift [Nonempty ι] (s : ι → ℝ) (M : ℝ) (j : ι) :
    Ideal.div (Ideal.exp ((s j : EReal) - (M : EReal))) (∑ i, Ideal.exp ((s i : EReal) - (M : EReal)))
      = Ideal.exp (s j : EReal) * Ideal.div 1 (∑ i, Ideal.exp (s i : EReal)) := by
  have h1 : ∀ i, Ideal.exp ((s i : EReal) - (M : EReal)) = ((Real.exp (s i - M) : ℝ) : EReal) := fun i => by
    rw [← EReal.coe_sub]; rfl
  have h2 : ∀ i, Ideal.exp (s i : EReal) = ((Real.exp (s i) : ℝ) : EReal) := fun i => rfl
  have hS1 : 0 < ∑ i, Real.exp (s i - M) := Finset.sum_pos (fun i _ => Real.exp_pos _) Finset.univ_nonempty
  have hS2 : 0 < ∑ i, Real.exp (s i) := Finset.sum_pos (fun i _ => Real.exp_pos _) Finset.univ_nonempty
  simp only [h1, h2, coe_sum]
  rw [Ideal.div_coe hS1.ne', Ideal.div_coe hS2.ne', one_mul, ← EReal.coe_mul, ← EReal.coe_mul]
  congr 1
  have hsub : ∀ i, Real.exp (s i - M) = Real.exp (s i) / Real.exp M := fun i => Real.exp_sub _ _
  have hM0 : Real.exp M ≠ 0 := (Real.exp_pos M).ne'
  have hS20 : (∑ i, Real.exp (s i)) ≠ 0 := hS2.ne'
  simp only [hsub, ← Finset.sum_div]
  field_simp

end Rows

end Cert.ERealRows

end
-- ==== Proof.Finite.lean ====
/-
  Reading the precondition back: every coordinate is a real number.

  The precondition is the conjunction, over the four arguments, of "every entry's absolute value is below +∞". Its
  third and fourth conjuncts speak of `coord_elec` and `coord_nuc`. A conjunction of bits is one exactly when both
  bits are; an `and`-reduction into a single result is one only if every entry is; and an extended real whose
  absolute value `max x (−x)` is below +∞ is neither infinity, hence a real.
-/
import proofs.«402141_j36490042146825_3_alg».proof.Pre_finite_inputs
import proofs.«402141_j36490042146825_3_alg».proof.Proof.LibERealRows
import Idealize.ShloMosaic.Lib.ReduceAll
import Idealize.ShloMosaic.Lib.Affine
import Idealize.ShloMosaic.Lib.ValueIdx
import Idealize.ShloMosaic.Lib.Pipeline.Value

noncomputable section

open Idealize.ShloMosaic Idealize.ShloMosaic.ValueIdx

namespace Cert.RadiusGraph.Finite

open Cert.Pre_finite_inputs Cert.Pre_finite_inputs.Facts

variable [Cert.Pre_finite_inputs.Facts]

instance : Subsingleton S_.Idx := ⟨fun _ _ => funext fun d => d.elim0⟩

/-- An entry that passes "absolute value below +∞" is a real. -/
theorem real_of_test {s : Shape} (x : FVec Ideal s .f32) (hb : S_.BroadcastsInDim s (![] : Fin 0 → Fin s.rank)) (i : s.Idx)
    (e : cmpf .olt (Host.absf x) (broadcastInDim s ![] hb (constant S_ .f32 0x7F800000#32)) i = 1#1) :
    ∃ r : ℝ, x i = (r : EReal) := by
  rw [cmpf_apply, broadcastInDim_apply _ hb (constant (F := Ideal) S_ .f32 0x7F800000#32) i (fun a => a.elim0) (fun a => a.elim0)] at e
  exact Cert.ERealRows.real_of_abs_lt_inf (x i) e

/-- Under the precondition, `coord_elec` and `coord_nuc` hold real numbers. -/
theorem real_of_pre (a0 : FVec Ideal S4096x16x128 .f32) (a1 : FVec Ideal S4096x16x3x128 .f32)
    (a2 : FVec Ideal S4096x64x3 .f32) (a3 : FVec Ideal S16x3 .f32)
    (h : Cert.Pre_finite_inputs.fn (F := Ideal) a0 a1 a2 a3 = fun _ => 1#1) :
    (∀ i, ∃ r : ℝ, a2 i = (r : EReal)) ∧ (∀ i, ∃ r : ℝ, a3 i = (r : EReal)) := by
  have h0 : Cert.Pre_finite_inputs.fn (F := Ideal) a0 a1 a2 a3 ix0 = 1#1 := congrFun h ix0
  unfold Cert.Pre_finite_inputs.fn Cert.Pre_finite_inputs.fn_part1 at h0
  dsimp only at h0
  have h0' : IntOp.andi _ _ = 1#1 := h0
  obtain ⟨h13, h17⟩ := IntOp.andi_eq_one.mp h0'
  have h13' : IntOp.andi _ _ = 1#1 := h13
  obtain ⟨-, h12⟩ := IntOp.andi_eq_one.mp h13'
  exact ⟨fun i => real_of_test a2 bcast_S_S4096x64x3 i (Host.reduce_andi_all _ _ _ _ ix0 h12 i),
    fun i => real_of_test a3 bcast_S_S16x3 i (Host.reduce_andi_all _ _ _ _ ix0 h17 i)⟩

end Cert.RadiusGraph.Finite

end
-- ==== Proof.Bridge.lean ====
/-
  The two programs end with equal results.

  Three of the five results do not touch the region: `s_flat` and `v_flat` are reshapes of the first two arguments,
  and `edge_index` is built from index ramps alone by the same operations in the same order on both sides, so the two
  terms are one term. The other two are the displacement of every edge and the mask: the kernel's are the
  specification's functions of `coord_elec` and `coord_nuc` whatever the numbers are; the reference's displacement is
  the same function by index arithmetic, and its mask is the same function once the coordinates are real numbers,
  which the precondition says.
-/
import proofs.«402141_j36490042146825_3_alg».proof.Defs
import proofs.«402141_j36490042146825_3_alg».proof.Proof.Gen.Pre_finite_inputs
import proofs.«402141_j36490042146825_3_alg».proof.Proof.Host
import proofs.«402141_j36490042146825_3_alg».proof.Proof.Ref
import proofs.«402141_j36490042146825_3_alg».proof.Proof.Finite

set_option maxRecDepth 16384

noncomputable section

open Idealize.ShloMosaic Idealize.ShloMosaic.TcCoe Idealize.SL.Sem Idealize.ShloMosaic.StableHlo
open Idealize.ShloMosaic.Pipeline (Dat)

namespace Cert.RadiusGraph.Bridge

open Cert.RadiusGraph.Spec

section Kernel

open Cert.KernelIdeal Cert.KernelIdeal.Gen

variable {F : FTy → Type} [FloatOps F]
variable (m : (ℓ : Loc nD τ sig) → Buf (Elt F) ℓ) (ρ : Dev nD → PrngReg)

/-- The kernel's `s_flat`: the first argument reshaped. -/
theorem s_flat_eq (c : Dev nD) :
    Pipeline.afterTail₀ cfgs (dats m) 0 (V0 m) [hostOps1] c main_v33
      = shapeCast S65536x128 (m ((c : Thread nD τ).loc main_arg0)) shapeCasts_S4096x16x128_S65536x128 := by
  unfold Pipeline.afterTail₀
  show StableHlo.after hostOps1 _ (Proc.devRef .tc main_v33) = _
  after_results
  show shapeCast S65536x128
      (Pipeline.withArrays (cfgs 0).spec c (V0 m c) (fun w => (dats m 0 c).arrAt w (cfgs 0).N) (Proc.devRef .tc main_arg0))
      shapeCasts_S4096x16x128_S65536x128 = _
  rw [Pipeline.withArrays_of_ne _ c (V0 m c) _ main_arg0 (by exact (by decide : ∀ w, Pipeline.arrRef spec0 w ≠ main_arg0))]
  exact congrArg (shapeCast S65536x128 · shapeCasts_S4096x16x128_S65536x128) (V_main_arg0 m c)

/-- The kernel's `v_flat`: the second argument reshaped. -/
theorem v_flat_eq (c : Dev nD) :
    Pipeline.afterTail₀ cfgs (dats m) 0 (V0 m) [hostOps1] c main_v34
      = shapeCast S65536x3x128 (m ((c : Thread nD τ).loc main_arg1)) shapeCasts_S4096x16x3x128_S65536x3x128 := by
  unfold Pipeline.afterTail₀
  show StableHlo.after hostOps1 _ (Proc.devRef .tc main_v34) = _
  after_results
  show shapeCast S65536x3x128
      (Pipeline.withArrays (cfgs 0).spec c (V0 m c) (fun w => (dats m 0 c).arrAt w (cfgs 0).N) (Proc.devRef .tc main_arg1))
      shapeCasts_S4096x16x3x128_S65536x3x128 = _
  rw [Pipeline.withArrays_of_ne _ c (V0 m c) _ main_arg1 (by exact (by decide : ∀ w, Pipeline.arrRef spec0 w ≠ main_arg1))]
  exact congrArg (shapeCast S65536x3x128 · shapeCasts_S4096x16x3x128_S65536x3x128) (V_main_arg1 m c)

/-- The kernel's `edge_index`: the reference's stage, term for term. -/
theorem edge_index_eq (c : Dev nD) :
    Pipeline.afterTail₀ cfgs (dats m) 0 (V0 m) [hostOps1] c main_v32 = Cert.ReferenceIdeal.Read.val_main_v31 (F := F) := by
  unfold Pipeline.afterTail₀
  show StableHlo.after hostOps1 _ (Proc.devRef .tc main_v32) = _
  after_results <;> rfl

/-- The kernel's run with every result named. -/
theorem run : θ_run defs (onTc (τ := τ) (main (F := F))) ⟨m, fun _ => 0, ρ⟩ fun r => ∀ c : Dev nD,
      r.2.mem ((c.tc : Thread nD τ).loc main_v33)
        = shapeCast S65536x128 (m ((c : Thread nD τ).loc main_arg0)) shapeCasts_S4096x16x128_S65536x128
      ∧ r.2.mem ((c.tc : Thread nD τ).loc main_v34)
        = shapeCast S65536x3x128 (m ((c : Thread nD τ).loc main_arg1)) shapeCasts_S4096x16x3x128_S65536x3x128
      ∧ r.2.mem ((c.tc : Thread nD τ).loc main_v32) = Cert.ReferenceIdeal.Read.val_main_v31 (F := F)
      ∧ r.2.mem ((c.tc : Thread nD τ).loc main_v6) = edgeAttr (Host.ce m c) (Host.cn m c)
      ∧ r.2.mem ((c.tc : Thread nD τ).loc main_v9) = maskBit (Host.ce m c) (Host.cn m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v33 (Pipeline.mem_restRefs_of main_v33 (by decide) (by decide))).trans (s_flat_eq m c),
     ((h c).2 main_v34 (Pipeline.mem_restRefs_of main_v34 (by decide) (by decide))).trans (v_flat_eq m c),
     ((h c).2 main_v32 (Pipeline.mem_restRefs_of main_v32 (by decide) (by decide))).trans (edge_index_eq m c),
     ((h c).2 main_v6 (Pipeline.mem_restRefs_of main_v6 (by decide) (by decide))).trans (Host.edge_attr_eq m c),
     ((h c).2 main_v9 (Pipeline.mem_restRefs_of main_v9 (by decide) (by decide))).trans (Host.mask_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Kernel

/-- The idealized kernel and the idealized reference, run from memories that agree on the arguments, end with equal
    results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, _, _, _, _, run (F := Ideal) m ρ, ?_⟩
  refine (θ_run Cert.ReferenceIdeal.defs _ _).mono (fun r h c => ?_) (Cert.ReferenceIdeal.Value.run (F := Ideal) m' ρ')
  obtain ⟨a0, a1, a2, a3⟩ := hagree c
  obtain ⟨h33, h34, h31, h32, h8, hargs⟩ := h c
  obtain ⟨hr2, hr3⟩ := Cert.RadiusGraph.Finite.real_of_pre _ _ _ _ (hpre c)
  refine ⟨h33.trans ?_, h34.trans ?_, h31.trans ?_, h32.trans ?_, h8.trans ?_, hargs⟩
  · rw [a0]
  · rw [a1]
  · exact Cert.ReferenceIdeal.Read.val_main_v31_eq
  · rw [Cert.ReferenceIdeal.Read.val_main_v32_eq, Cert.RadiusGraph.Ref.edge_attr_eq, a2, a3]
  · rw [Cert.ReferenceIdeal.Read.val_main_v8_eq, a2, a3]
    exact Cert.RadiusGraph.Ref.mask_eq _ _ hr2 hr3

end Cert.RadiusGraph.Bridge

end
-- ==== Proof.lean ====
/-
  A dense radius graph between nuclei and electrons, kernel against reference, over the extended reals.

  For every sample b, nucleus i and electron j both programs return the displacement
  `coord_elec[b, j] − coord_nuc[i]` (three components per edge, edges numbered n = (b · 16 + i) · 64 + j), a mask
  saying whether that displacement is shorter than the cutoff 5, the batched node indices of every edge, and the two
  feature arrays flattened over (sample, nucleus).

  The reference subtracts broadcast copies and tests `√(0 + (d_0² + d_1²) + d_2²) < 5`. The kernel transposes the
  electron coordinates so that the component axis leads, repeats each nucleus row 64 times, and in 16 grid steps of
  256 samples tiles the electron block 16 times along the lanes, subtracts, and tests `(d_0² + d_1²) + d_2² < 25`
  without the root, writing the answer as a word that the host turns back into a bit.

  The displacement is the same function of the arguments on both sides by index arithmetic alone
  (n / 1024, (n mod 1024) / 64 and (n mod 1024) mod 64 are the sample, nucleus and electron of edge n). The two masks
  agree because, for real coordinates — which the precondition gives — the sum of squares s is a non-negative real
  and `√s < 5 ⟺ s < 25`, both cutoffs being exact binary fractions. The node indices are built from index ramps by
  the same operations on both sides, and the flattened feature arrays are reshapes of the arguments.

  Frames: the two kernel programs run by their generated frame proofs; the reference runs by its generated run.
  The idealization rewrote nothing, so its conjunct is trivial.
-/
import proofs.«402141_j36490042146825_3_alg».proof.Defs
import proofs.«402141_j36490042146825_3_alg».proof.Proof.Gen.Kernel
import proofs.«402141_j36490042146825_3_alg».proof.Proof.Gen.Kernel.Skeleton
import proofs.«402141_j36490042146825_3_alg».proof.Proof.Gen.Kernel.Launch
import proofs.«402141_j36490042146825_3_alg».proof.Proof.Gen.Kernel.Points
import proofs.«402141_j36490042146825_3_alg».proof.Proof.Gen.Kernel.Frame
import proofs.«402141_j36490042146825_3_alg».proof.Proof.Gen.KernelIdeal
import proofs.«402141_j36490042146825_3_alg».proof.Proof.Gen.KernelIdeal.Skeleton
import proofs.«402141_j36490042146825_3_alg».proof.Proof.Gen.KernelIdeal.Launch
import proofs.«402141_j36490042146825_3_alg».proof.Proof.Gen.KernelIdeal.Points
import proofs.«402141_j36490042146825_3_alg».proof.Proof.Gen.KernelIdeal.Frame
import proofs.«402141_j36490042146825_3_alg».proof.Proof.Gen.ReferenceIdeal
import proofs.«402141_j36490042146825_3_alg».proof.Proof.Gen.Pre_finite_inputs
import proofs.«402141_j36490042146825_3_alg».proof.Proof.Gen.ReferenceIdeal.Run
import proofs.«402141_j36490042146825_3_alg».proof.Proof.Gen.ReferenceIdeal.Read
import proofs.«402141_j36490042146825_3_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and leaves its arguments unchanged. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments unchanged: its run, with the results dropped. -/
theorem frame_reference_ideal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2.2)
    (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, Cert.RadiusGraph.Bridge.algebraic⟩

end Cert.Proof

end
